-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16641 : Shape := ⟨2, ![1024, 16641]⟩
abbrev S1024x129 : Shape := ⟨2, ![1024, 129]⟩
abbrev S1024x16384 : Shape := ⟨2, ![1024, 16384]⟩
abbrev S33154x512 : Shape := ⟨2, ![33154, 512]⟩
abbrev S512 : Shape := ⟨1, ![512]⟩
abbrev S512x129 : Shape := ⟨2, ![512, 129]⟩
abbrev S129 : Shape := ⟨1, ![129]⟩
abbrev S_ : Shape := ⟨0, ![]⟩

class Facts : Prop where
  bcast_S_S1024x16641 : S_.BroadcastsInDim S1024x16641 (![] : Fin 0 → Fin S1024x16641.rank)
  reducesTo_S1024x16641_S_d0_1 : S1024x16641.ReducesTo [0, 1] S_
  h_S_ : 0 < S_.numel
  bcast_S_S1024x129 : S_.BroadcastsInDim S1024x129 (![] : Fin 0 → Fin S1024x129.rank)
  reducesTo_S1024x129_S_d0_1 : S1024x129.ReducesTo [0, 1] S_
  bcast_S_S1024x16384 : S_.BroadcastsInDim S1024x16384 (![] : Fin 0 → Fin S1024x16384.rank)
  reducesTo_S1024x16384_S_d0_1 : S1024x16384.ReducesTo [0, 1] S_
  bcast_S_S33154x512 : S_.BroadcastsInDim S33154x512 (![] : Fin 0 → Fin S33154x512.rank)
  reducesTo_S33154x512_S_d0_1 : S33154x512.ReducesTo [0, 1] S_
  bcast_S_S512 : S_.BroadcastsInDim S512 (![] : Fin 0 → Fin S512.rank)
  reducesTo_S512_S_d0 : S512.ReducesTo [0] S_
  bcast_S_S512x129 : S_.BroadcastsInDim S512x129 (![] : Fin 0 → Fin S512x129.rank)
  reducesTo_S512x129_S_d0_1 : S512x129.ReducesTo [0, 1] S_
  bcast_S_S129 : S_.BroadcastsInDim S129 (![] : Fin 0 → Fin S129.rank)
  reducesTo_S129_S_d0 : S129.ReducesTo [0] S_

variable [Facts]

def fn_part1 {F : FTy → Type} [FloatOps F] (main_arg4 : FVec F S512 .f32) (main_arg5 : FVec F S512x129 .f32) (main_arg6 : FVec F S129 .f32) (main_v13 : IVec S_ 1) (main_v16 : IVec S33154x512 1) : IVec S_ 1 :=
  let main_c_5 : IVec S_ 1 := constantI S_ 1 1#1
  let main_v17 : IVec S_ 1 := (fun x v => Host.reduce IntOp.andi x v reducesTo_S33154x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x129 .f32 := Host.absf main_arg5
  let main_cst_8 : FVec F S_ .f32 := constant S_ .f32 0x7F800000#32
  let main_v25 : FVec F S512x129 .f32 := broadcastInDim S512x129 ![] bcast_S_S512x129 main_cst_8
  let main_v26 : IVec S512x129 1 := cmpf .olt main_v24 main_v25
  let main_c_9 : IVec S_ 1 := constantI S_ 1 1#1
  let main_v27 : IVec S_ 1 := (fun x v => Host.reduce IntOp.andi x v reducesTo_S512x129_S_d0_1 h_S_) main_v26 main_c_9
  let main_v28 : IVec S_ 1 := andi main_v23 main_v27
  let main_v29 : FVec F S129 .f32 := Host.absf main_arg6
  let main_cst_10 : FVec F S_ .f32 := constant S_ .f32 0x7F800000#32
  let main_v30 : FVec F S129 .f32 := broadcastInDim S129 ![] bcast_S_S129 main_cst_10
  let main_v31 : IVec S129 1 := cmpf .olt main_v29 main_v30
  let main_c_11 : IVec S_ 1 := constantI S_ 1 1#1
  let main_v32 : IVec S_ 1 := (fun x v => Host.reduce IntOp.andi x v reducesTo_S129_S_d0 h_S_) main_v31 main_c_11
  let main_v33 : IVec S_ 1 := andi main_v28 main_v32
  main_v33

def fn {F : FTy → Type} [FloatOps F] (main_arg0 : FVec F S1024x16641 .f32) (main_arg1 : FVec F S1024x129 .f32) (main_arg2 : FVec F S1024x16384 .f32) (main_arg3 : FVec F S33154x512 .f32) (main_arg4 : FVec F S512 .f32) (main_arg5 : FVec F S512x129 .f32) (main_arg6 : FVec F S129 .f32) : IVec S_ 1 :=
  let main_v0 : FVec F S1024x16641 .f32 := Host.absf main_arg0
  let main_cst : FVec F S_ .f32 := constant S_ .f32 0x7F800000#32
  let main_v1 : FVec F S1024x16641 .f32 := broadcastInDim S1024x16641 ![] bcast_S_S1024x16641 main_cst
  let main_v2 : IVec S1024x16641 1 := cmpf .olt main_v0 main_v1
  let main_c : IVec S_ 1 := constantI S_ 1 1#1
  let main_v3 : IVec S_ 1 := (fun x v => Host.reduce IntOp.andi x v reducesTo_S1024x16641_S_d0_1 h_S_) main_v2 main_c
  let main_v4 : FVec F S1024x129 .f32 := Host.absf main_arg1
  let main_cst_0 : FVec F S_ .f32 := constant S_ .f32 0x7F800000#32
  let main_v5 : FVec F S1024x129 .f32 := broadcastInDim S1024x129 ![] bcast_S_S1024x129 main_cst_0
  let main_v6 : IVec S1024x129 1 := cmpf .olt main_v4 main_v5
  let main_c_1 : IVec S_ 1 := constantI S_ 1 1#1
  let main_v7 : IVec S_ 1 := (fun x v => Host.reduce IntOp.andi x v reducesTo_S1024x129_S_d0_1 h_S_) main_v6 main_c_1
  let main_v8 : IVec S_ 1 := andi main_v3 main_v7
  let main_v9 : FVec F S1024x16384 .f32 := Host.absf main_arg2
  let main_cst_2 : FVec F S_ .f32 := constant S_ .f32 0x7F800000#32
  let main_v10 : FVec F S1024x16384 .f32 := broadcastInDim S1024x16384 ![] bcast_S_S1024x16384 main_cst_2
  let main_v11 : IVec S1024x16384 1 := cmpf .olt main_v9 main_v10
  let main_c_3 : IVec S_ 1 := constantI S_ 1 1#1
  let main_v12 : IVec S_ 1 := (fun x v => Host.reduce IntOp.andi x v reducesTo_S1024x16384_S_d0_1 h_S_) main_v11 main_c_3
  let main_v13 : IVec S_ 1 := andi main_v8 main_v12
  let main_v14 : FVec F S33154x512 .f32 := Host.absf main_arg3
  let main_cst_4 : FVec F S_ .f32 := constant S_ .f32 0x7F800000#32
  let main_v15 : FVec F S33154x512 .f32 := broadcastInDim S33154x512 ![] bcast_S_S33154x512 main_cst_4
  let main_v16 : IVec S33154x512 1 := cmpf .olt main_v14 main_v15
  fn_part1 (F := F) main_arg4 main_arg5 main_arg6 main_v13 main_v16
-- ==== Kernel.lean ====
abbrev S1024x16641 : Shape := ⟨2, ![1024, 16641]⟩
abbrev S1024x129 : Shape := ⟨2, ![1024, 129]⟩
abbrev S1024x16384 : Shape := ⟨2, ![1024, 16384]⟩
abbrev S33154x512 : Shape := ⟨2, ![33154, 512]⟩
abbrev S512 : Shape := ⟨1, ![512]⟩
abbrev S512x129 : Shape := ⟨2, ![512, 129]⟩
abbrev S129 : Shape := ⟨1, ![129]⟩
abbrev S16641x512 : Shape := ⟨2, ![16641, 512]⟩
abbrev S129x512 : Shape := ⟨2, ![129, 512]⟩
abbrev S16384x512 : Shape := ⟨2, ![16384, 512]⟩
abbrev S1024x257 : Shape := ⟨2, ![1024, 257]⟩
abbrev S257x512 : Shape := ⟨2, ![257, 512]⟩
abbrev S1x512 : Shape := ⟨2, ![1, 512]⟩
abbrev S1x129 : Shape := ⟨2, ![1, 129]⟩
abbrev S1024x1024 : Shape := ⟨2, ![1024, 1024]⟩
abbrev S1024x512 : Shape := ⟨2, ![1024, 512]⟩
abbrev S132096 : Shape := ⟨1, ![132096]⟩

abbrev nBuf : Space → Nat
  | .hbm => 18
  | .vmem => 17
  | .smem => 0
  | _ => 0

abbrev bufTy : (tb : Table) → Fin (tcTables nBuf tb) → BufTy
  | .hbm, ⟨0, _⟩ => ⟨S1024x16641, .f32⟩
  | .hbm, ⟨1, _⟩ => ⟨S1024x129, .f32⟩
  | .hbm, ⟨2, _⟩ => ⟨S1024x16384, .f32⟩
  | .hbm, ⟨3, _⟩ => ⟨S33154x512, .f32⟩
  | .hbm, ⟨4, _⟩ => ⟨S512, .f32⟩
  | .hbm, ⟨5, _⟩ => ⟨S512x129, .f32⟩
  | .hbm, ⟨6, _⟩ => ⟨S129, .f32⟩
  | .hbm, ⟨7, _⟩ => ⟨S16641x512, .f32⟩
  | .hbm, ⟨8, _⟩ => ⟨S129x512, .f32⟩
  | .hbm, ⟨9, _⟩ => ⟨S16384x512, .f32⟩
  | .hbm, ⟨10, _⟩ => ⟨S1024x16384, .f32⟩
  | .hbm, ⟨11, _⟩ => ⟨S1024x257, .f32⟩
  | .hbm, ⟨12, _⟩ => ⟨S16384x512, .f32⟩
  | .hbm, ⟨13, _⟩ => ⟨S257x512, .f32⟩
  | .hbm, ⟨14, _⟩ => ⟨S1x512, .f32⟩
  | .hbm, ⟨15, _⟩ => ⟨S1x129, .f32⟩
  | .hbm, ⟨16, _⟩ => ⟨S1024x129, .f32⟩
  | .hbm, ⟨17, _⟩ => ⟨S132096, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1024x512, .f32⟩
  | .local _ .vmem, ⟨7, _⟩ => ⟨S1024x512, .f32⟩
  | .local _ .vmem, ⟨8, _⟩ => ⟨S1024x129, .f32⟩
  | .local _ .vmem, ⟨9, _⟩ => ⟨S129x512, .f32⟩
  | .local _ .vmem, ⟨10, _⟩ => ⟨S1024x257, .f32⟩
  | .local _ .vmem, ⟨11, _⟩ => ⟨S257x512, .f32⟩
  | .local _ .vmem, ⟨12, _⟩ => ⟨S1x512, .f32⟩
  | .local _ .vmem, ⟨13, _⟩ => ⟨S512x129, .f32⟩
  | .local _ .vmem, ⟨14, _⟩ => ⟨S1x129, .f32⟩
  | .local _ .vmem, ⟨15, _⟩ => ⟨S1024x129, .f32⟩
  | .local _ .vmem, ⟨16, _⟩ => ⟨S1024x512, .f32⟩
  | _, _ => ⟨S1024x16641, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![32], ![false]⟩

def k0_cond4 (i : grid0.Coords) : BitVec 1 :=
  let arg0 : BitVec 32 := BitVec.ofNat 32 (i 0).val
  let c31_i32 : BitVec 32 := 31#32
  let v9 : BitVec 1 := Scalar.cmpi .eq arg0 c31_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x129 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S129x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x257 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S257x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x129 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x129 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x129 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  slices_S33154x512_S16641x512_0_0 : S33154x512.Slices ![0, 0] S16641x512
  slices_S33154x512_S129x512_16641_0 : S33154x512.Slices ![16641, 0] S129x512
  slices_S33154x512_S16384x512_16770_0 : S33154x512.Slices ![16770, 0] S16384x512
  slices_S1024x16641_S1024x16384_0_0 : S1024x16641.Slices ![0, 0] S1024x16384
  slices_S1024x16641_S1024x257_0_16384 : S1024x16641.Slices ![0, 16384] S1024x257
  slices_S16641x512_S16384x512_0_0 : S16641x512.Slices ![0, 0] S16384x512
  slices_S16641x512_S257x512_16384_0 : S16641x512.Slices ![16384, 0] S257x512
  shapeCasts_S512_S1x512 : S512.ShapeCasts S1x512
  shapeCasts_S129_S1x129 : S129.ShapeCasts S1x129
  inb_S1024x129_S1024x129_0_0 : ∀ a, (![0, 0] : Fin 2 → Nat) a + S1024x129.size a ≤ S1024x129.size a
  h_S1024x129 : 0 < S1024x129.numel
  bitsLt_bf16_f32 : FTy.bits .bf16 < FTy.bits .f32
  inb_S129x512_S129x512_0_0 : ∀ a, (![0, 0] : Fin 2 → Nat) a + S129x512.size a ≤ S129x512.size a
  h_S129x512 : 0 < S129x512.numel
  shapeCasts_S129x512_S129x512 : S129x512.ShapeCasts S129x512
  inb_S1024x257_S1024x257_0_0 : ∀ a, (![0, 0] : Fin 2 → Nat) a + S1024x257.size a ≤ S1024x257.size a
  h_S1024x257 : 0 < S1024x257.numel
  shapeCasts_S1024x257_S1024x257 : S1024x257.ShapeCasts S1024x257
  inb_S257x512_S257x512_0_0 : ∀ a, (![0, 0] : Fin 2 → Nat) a + S257x512.size a ≤ S257x512.size a
  h_S257x512 : 0 < S257x512.numel
  shapeCasts_S257x512_S257x512 : S257x512.ShapeCasts S257x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x129_S512x129_0_0 : ∀ a, (![0, 0] : Fin 2 → Nat) a + S512x129.size a ≤ S512x129.size a
  h_S512x129 : 0 < S512x129.numel
  inb_S1x129_S1x129_0_0 : ∀ a, (![0, 0] : Fin 2 → Nat) a + S1x129.size a ≤ S1x129.size a
  h_S1x129 : 0 < S1x129.numel
  shapeCasts_S1x129_S1x129 : S1x129.ShapeCasts S1x129
  broadcasts_S1x129_S1024x129 : S1x129.Broadcasts S1024x129
  shapeCasts_S1024x129_S132096 : S1024x129.ShapeCasts S132096
  dot_S1024x129_S129x512_S1024x512_1_0_0_1_n_n_wf : DotDims.WF S1024x129 S129x512 S1024x512 [1] [0] [0] [1] [] []
  dot_S1024x257_S257x512_S1024x512_1_0_0_1_n_n_wf : DotDims.WF S1024x257 S257x512 S1024x512 [1] [0] [0] [1] [] []
  dot_S1024x1024_S1024x512_S1024x512_1_0_0_1_n_n_wf : DotDims.WF S1024x1024 S1024x512 S1024x512 [1] [0] [0] [1] [] []
  dot_S1024x512_S512x129_S1024x129_1_0_0_1_n_n_wf : DotDims.WF S1024x512 S512x129 S1024x129 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x16384.size a
  hwx0_0 : ∀ i : grid0.Coords, EltTy.bits .f32 = 32 ∨ (Rect.block (s := S1024x16384) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x16384.size a
  hwx0_2 : ∀ i : grid0.Coords, EltTy.bits .f32 = 32 ∨ (Rect.block (s := S1024x16384) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x129.size a ≤ S1024x129.size a
  hwx0_4 : ∀ i : grid0.Coords, EltTy.bits .f32 = 32 ∨ (Rect.block (s := S1024x129) S1024x129.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S129x512.size a ≤ S129x512.size a
  hwx0_5 : ∀ i : grid0.Coords, EltTy.bits .f32 = 32 ∨ (Rect.block (s := S129x512) S129x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x257.size a ≤ S1024x257.size a
  hwx0_6 : ∀ i : grid0.Coords, EltTy.bits .f32 = 32 ∨ (Rect.block (s := S1024x257) S1024x257.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S257x512.size a ≤ S257x512.size a
  hwx0_7 : ∀ i : grid0.Coords, EltTy.bits .f32 = 32 ∨ (Rect.block (s := S257x512) S257x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x129.size a ≤ S512x129.size a
  hwx0_9 : ∀ i : grid0.Coords, EltTy.bits .f32 = 32 ∨ (Rect.block (s := S512x129) S512x129.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x129.size a ≤ S1x129.size a
  hwx0_10 : ∀ i : grid0.Coords, EltTy.bits .f32 = 32 ∨ (Rect.block (s := S1x129) S1x129.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x129.size a ≤ S1024x129.size a
  hwx0_11 : ∀ i : grid0.Coords, EltTy.bits .f32 = 32 ∨ (Rect.block (s := S1024x129) S1024x129.size (cc0_transform_11 i) (hinb0_11 i)).WholeWords (EltTy.packing .f32)

variable [Facts₀]

def dot_S1024x129_S129x512_S1024x512_1_0_0_1_n_n : DotDims S1024x129 S129x512 S1024x512 where
  lhsContracting := [1]
  rhsContracting := [0]
  lhsNonContracting := [0]
  rhsNonContracting := [1]
  lhsBatch := []
  rhsBatch := []
  wf := dot_S1024x129_S129x512_S1024x512_1_0_0_1_n_n_wf
def dot_S1024x257_S257x512_S1024x512_1_0_0_1_n_n : DotDims S1024x257 S257x512 S1024x512 where
  lhsContracting := [1]
  rhsContracting := [0]
  lhsNonContracting := [0]
  rhsNonContracting := [1]
  lhsBatch := []
  rhsBatch := []
  wf := dot_S1024x257_S257x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x129_S1024x129_1_0_0_1_n_n : DotDims S1024x512 S512x129 S1024x129 where
  lhsContracting := [1]
  rhsContracting := [0]
  lhsNonContracting := [0]
  rhsNonContracting := [1]
  lhsBatch := []
  rhsBatch := []
  wf := dot_S1024x512_S512x129_S1024x129_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1024x129.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S129x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x257.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S257x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S512x129.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x129.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1024x129.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond4 i == 1#1) | ⟨_ + 12, h⟩ => absurd h (Nat.not_lt.2 (Nat.le_add_left _ _))

class Facts : Prop extends Facts₀ where

variable [Facts]
-- ==== ReferenceIdeal.lean ====
abbrev S1024x16641 : Shape := ⟨2, ![1024, 16641]⟩
abbrev S1024x129 : Shape := ⟨2, ![1024, 129]⟩
abbrev S1024x16384 : Shape := ⟨2, ![1024, 16384]⟩
abbrev S33154x512 : Shape := ⟨2, ![33154, 512]⟩
abbrev S512 : Shape := ⟨1, ![512]⟩
abbrev S512x129 : Shape := ⟨2, ![512, 129]⟩
abbrev S129 : Shape := ⟨1, ![129]⟩
abbrev S1024x33154 : Shape := ⟨2, ![1024, 33154]⟩
abbrev S1024x512 : Shape := ⟨2, ![1024, 512]⟩
abbrev S1x512 : Shape := ⟨2, ![1, 512]⟩
abbrev S_ : Shape := ⟨0, ![]⟩
abbrev S1x129 : Shape := ⟨2, ![1, 129]⟩
abbrev S132096 : Shape := ⟨1, ![132096]⟩

abbrev nBuf : Space → Nat
  | .hbm => 20
  | .vmem => 0
  | .smem => 0
  | _ => 0

abbrev bufTy : (tb : Table) → Fin (tcTables nBuf tb) → BufTy
  | .hbm, ⟨0, _⟩ => ⟨S1024x16641, .f32⟩
  | .hbm, ⟨1, _⟩ => ⟨S1024x129, .f32⟩
  | .hbm, ⟨2, _⟩ => ⟨S1024x16384, .f32⟩
  | .hbm, ⟨3, _⟩ => ⟨S33154x512, .f32⟩
  | .hbm, ⟨4, _⟩ => ⟨S512, .f32⟩
  | .hbm, ⟨5, _⟩ => ⟨S512x129, .f32⟩
  | .hbm, ⟨6, _⟩ => ⟨S129, .f32⟩
  | .hbm, ⟨7, _⟩ => ⟨S1024x33154, .f32⟩
  | .hbm, ⟨8, _⟩ => ⟨S1024x512, .f32⟩
  | .hbm, ⟨9, _⟩ => ⟨S1x512, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x129, .f32⟩
  | .hbm, ⟨16, _⟩ => ⟨S1x129, .f32⟩
  | .hbm, ⟨17, _⟩ => ⟨S1024x129, .f32⟩
  | .hbm, ⟨18, _⟩ => ⟨S1024x129, .f32⟩
  | .hbm, ⟨19, _⟩ => ⟨S132096, .f32⟩
  | _, _ => ⟨S1024x16641, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  concatenates_S1024x16641_S1024x129_S1024x16384_S1024x33154_d1 : Shape.Concatenates [S1024x16641, S1024x129, S1024x16384] S1024x33154 1
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S129_S1x129_1 : S129.BroadcastsInDim S1x129 (![1] : Fin 1 → Fin S1x129.rank)
  bcast_S1x129_S1024x129_0_1 : S1x129.BroadcastsInDim S1024x129 (![0, 1] : Fin 2 → Fin S1024x129.rank)
  shapeCasts_S1024x129_S132096 : S1024x129.ShapeCasts S132096
  dot_S1024x33154_S33154x512_S1024x512_1_0_0_1_n_n_wf : DotDims.WF S1024x33154 S33154x512 S1024x512 [1] [0] [0] [1] [] []
  dot_S1024x512_S512x129_S1024x129_1_0_0_1_n_n_wf : DotDims.WF S1024x512 S512x129 S1024x129 [1] [0] [0] [1] [] []

variable [Facts₀]

def dot_S1024x33154_S33154x512_S1024x512_1_0_0_1_n_n : DotDims S1024x33154 S33154x512 S1024x512 where
  lhsContracting := [1]
  rhsContracting := [0]
  lhsNonContracting := [0]
  rhsNonContracting := [1]
  lhsBatch := []
  rhsBatch := []
  wf := dot_S1024x33154_S33154x512_S1024x512_1_0_0_1_n_n_wf
def dot_S1024x512_S512x129_S1024x129_1_0_0_1_n_n : DotDims S1024x512 S512x129 S1024x129 where
  lhsContracting := [1]
  rhsContracting := [0]
  lhsNonContracting := [0]
  rhsNonContracting := [1]
  lhsBatch := []
  rhsBatch := []
  wf := dot_S1024x512_S512x129_S1024x129_1_0_0_1_n_n_wf

class Facts : Prop extends Facts₀ where

variable [Facts]
-- ==== Proof.Pieces.lean ====
/-
  What each of the four control cases of the kernel body leaves behind, as the body's own arithmetic of the blocks it loads.

  Step 0 (case A) stores the two one-shot products into the accumulator, reads them back and stores them again with the
  first tile's product added. A step 1 … 15 (case B) adds the current tile of the first tiled operand to what the step
  before left. A step 16 … 30 (case C) does the same with the second tiled operand. Step 31 (case D) does as case C and
  then, reading the accumulator it has just stored, writes the output block: bias, rectifier, second product, second bias.
  Each store covers its whole buffer, so what a buffer ends with is the value of its last store.
-/
import proofs.«163590_j69922067579329_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Case A: the accumulator ends at the first tile's update of the two one-shot products. -/
theorem acc_A (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x129 .f32) (harg5 : arg5.IsWhole) (arg6 : Memref sig .tc .vmem S129x512 .f32) (harg6 : arg6.IsWhole) (arg7 : Memref sig .tc .vmem S1024x257 .f32) (harg7 : arg7.IsWhole) (arg8 : Memref sig .tc .vmem S257x512 .f32) (harg8 : arg8.IsWhole) (arg9 : Memref sig .tc .vmem S1x512 .f32) (harg9 : arg9.IsWhole) (arg10 : Memref sig .tc .vmem S512x129 .f32) (harg10 : arg10.IsWhole) (arg11 : Memref sig .tc .vmem S1x129 .f32) (harg11 : arg11.IsWhole) (arg12 : Memref sig .tc .vmem S1024x129 .f32) (harg12 : arg12.IsWhole) (arg13 : Memref sig .tc .vmem S1024x512 .f32) (harg13 : arg13.IsWhole) (hc0 : cond0_0 i) (hc1 : cond0_1 i) (hc2 : ¬cond0_2 i) (hc3 : ¬cond0_3 i)
    (x0 : Vec F S1024x1024 .f32) (x1 : Vec F S1024x512 .f32) (x2 : Vec F S1024x1024 .f32) (x3 : Vec F S1024x512 .f32) (x4 : Vec F S1024x129 .f32) (x5 : Vec F S129x512 .f32) (x6 : Vec F S1024x257 .f32) (x7 : Vec F S257x512 .f32) (x8 : Vec F S1x512 .f32) (x9 : Vec F S512x129 .f32) (x10 : Vec F S1x129 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 x9 x10 = k0_pay2 (k0_pay1 x4 x5 x6 x7) x0 x1 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 x9 x10)]
  unfold kernelRun0_A
  dsimp only
  sl_unfold_words
  rw [View.canon_cons_unit_zero (S := S1024x512) hz, View.readCov_unit_zero (S := S1024x512) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg13.read_unread, View.ld_unit_zero (S := S1024x1024) hz, View.ld_unit_zero (S := S1024x512) hz, View.ld_unit_zero (S := S1024x129) hz, View.ld_unit_zero (S := S129x512) hz, View.ld_unit_zero (S := S1024x257) hz, View.ld_unit_zero (S := S257x512) hz, View.ld_unit_zero (S := S1x512) hz, View.ld_unit_zero (S := S512x129) hz, View.ld_unit_zero (S := S1x129) hz]

/-- Case B: the accumulator ends at the update of what the step before left by the first tiled operand's tile. -/
theorem acc_B (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x129 .f32) (harg5 : arg5.IsWhole) (arg6 : Memref sig .tc .vmem S129x512 .f32) (harg6 : arg6.IsWhole) (arg7 : Memref sig .tc .vmem S1024x257 .f32) (harg7 : arg7.IsWhole) (arg8 : Memref sig .tc .vmem S257x512 .f32) (harg8 : arg8.IsWhole) (arg9 : Memref sig .tc .vmem S1x512 .f32) (harg9 : arg9.IsWhole) (arg10 : Memref sig .tc .vmem S512x129 .f32) (harg10 : arg10.IsWhole) (arg11 : Memref sig .tc .vmem S1x129 .f32) (harg11 : arg11.IsWhole) (arg12 : Memref sig .tc .vmem S1024x129 .f32) (harg12 : arg12.IsWhole) (arg13 : Memref sig .tc .vmem S1024x512 .f32) (harg13 : arg13.IsWhole) (hc0 : ¬cond0_0 i) (hc1 : cond0_1 i) (hc2 : ¬cond0_2 i) (hc3 : ¬cond0_3 i)
    (x0 : Vec F S1024x1024 .f32) (x1 : Vec F S1024x512 .f32) (x2 : Vec F S1024x1024 .f32) (x3 : Vec F S1024x512 .f32) (x4 : Vec F S1024x129 .f32) (x5 : Vec F S129x512 .f32) (x6 : Vec F S1024x257 .f32) (x7 : Vec F S257x512 .f32) (x8 : Vec F S1x512 .f32) (x9 : Vec F S512x129 .f32) (x10 : Vec F S1x129 .f32) (xs0 : Vec F S1024x512 .f32) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 x9 x10 xs0 = k0_pay2 xs0 x0 x1 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 x9 x10 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg13.read_unread, View.ld_unit_zero (S := S1024x1024) hz, View.ld_unit_zero (S := S1024x512) hz, View.ld_unit_zero (S := S1024x129) hz, View.ld_unit_zero (S := S129x512) hz, View.ld_unit_zero (S := S1024x257) hz, View.ld_unit_zero (S := S257x512) hz, View.ld_unit_zero (S := S1x512) hz, View.ld_unit_zero (S := S512x129) hz, View.ld_unit_zero (S := S1x129) hz]

/-- Case C: the same with the second tiled operand's tile. -/
theorem acc_C (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x129 .f32) (harg5 : arg5.IsWhole) (arg6 : Memref sig .tc .vmem S129x512 .f32) (harg6 : arg6.IsWhole) (arg7 : Memref sig .tc .vmem S1024x257 .f32) (harg7 : arg7.IsWhole) (arg8 : Memref sig .tc .vmem S257x512 .f32) (harg8 : arg8.IsWhole) (arg9 : Memref sig .tc .vmem S1x512 .f32) (harg9 : arg9.IsWhole) (arg10 : Memref sig .tc .vmem S512x129 .f32) (harg10 : arg10.IsWhole) (arg11 : Memref sig .tc .vmem S1x129 .f32) (harg11 : arg11.IsWhole) (arg12 : Memref sig .tc .vmem S1024x129 .f32) (harg12 : arg12.IsWhole) (arg13 : Memref sig .tc .vmem S1024x512 .f32) (harg13 : arg13.IsWhole) (hc0 : ¬cond0_0 i) (hc1 : ¬cond0_1 i) (hc2 : cond0_2 i) (hc3 : ¬cond0_3 i)
    (x0 : Vec F S1024x1024 .f32) (x1 : Vec F S1024x512 .f32) (x2 : Vec F S1024x1024 .f32) (x3 : Vec F S1024x512 .f32) (x4 : Vec F S1024x129 .f32) (x5 : Vec F S129x512 .f32) (x6 : Vec F S1024x257 .f32) (x7 : Vec F S257x512 .f32) (x8 : Vec F S1x512 .f32) (x9 : Vec F S512x129 .f32) (x10 : Vec F S1x129 .f32) (xs0 : Vec F S1024x512 .f32) :
    sout0_C_0 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 x9 x10 xs0 = k0_pay3 xs0 x2 x3 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 x9 x10 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg13.read_unread, View.ld_unit_zero (S := S1024x1024) hz, View.ld_unit_zero (S := S1024x512) hz, View.ld_unit_zero (S := S1024x129) hz, View.ld_unit_zero (S := S129x512) hz, View.ld_unit_zero (S := S1024x257) hz, View.ld_unit_zero (S := S257x512) hz, View.ld_unit_zero (S := S1x512) hz, View.ld_unit_zero (S := S512x129) hz, View.ld_unit_zero (S := S1x129) hz]

/-- Case D: the accumulator as in case C … -/
theorem acc_D (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x129 .f32) (harg5 : arg5.IsWhole) (arg6 : Memref sig .tc .vmem S129x512 .f32) (harg6 : arg6.IsWhole) (arg7 : Memref sig .tc .vmem S1024x257 .f32) (harg7 : arg7.IsWhole) (arg8 : Memref sig .tc .vmem S257x512 .f32) (harg8 : arg8.IsWhole) (arg9 : Memref sig .tc .vmem S1x512 .f32) (harg9 : arg9.IsWhole) (arg10 : Memref sig .tc .vmem S512x129 .f32) (harg10 : arg10.IsWhole) (arg11 : Memref sig .tc .vmem S1x129 .f32) (harg11 : arg11.IsWhole) (arg12 : Memref sig .tc .vmem S1024x129 .f32) (harg12 : arg12.IsWhole) (arg13 : Memref sig .tc .vmem S1024x512 .f32) (harg13 : arg13.IsWhole) (hc0 : ¬cond0_0 i) (hc1 : ¬cond0_1 i) (hc2 : cond0_2 i) (hc3 : cond0_3 i)
    (x0 : Vec F S1024x1024 .f32) (x1 : Vec F S1024x512 .f32) (x2 : Vec F S1024x1024 .f32) (x3 : Vec F S1024x512 .f32) (x4 : Vec F S1024x129 .f32) (x5 : Vec F S129x512 .f32) (x6 : Vec F S1024x257 .f32) (x7 : Vec F S257x512 .f32) (x8 : Vec F S1x512 .f32) (x9 : Vec F S512x129 .f32) (x10 : Vec F S1x129 .f32) (xs0 : Vec F S1024x512 .f32) :
    sout0_D_0 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 x9 x10 xs0 = k0_pay3 xs0 x2 x3 := by
  unfold sout0_D_0
  rw [View.read_writes_eq_canon _ _ _ (scover0_D_0 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 x9 x10 xs0)]
  unfold kernelRun0_D
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg13.read_unread, View.ld_unit_zero (S := S1024x1024) hz, View.ld_unit_zero (S := S1024x512) hz, View.ld_unit_zero (S := S1024x129) hz, View.ld_unit_zero (S := S129x512) hz, View.ld_unit_zero (S := S1024x257) hz, View.ld_unit_zero (S := S257x512) hz, View.ld_unit_zero (S := S1x512) hz, View.ld_unit_zero (S := S512x129) hz, View.ld_unit_zero (S := S1x129) hz]

/-- … and the output block: the second layer over the accumulator just stored. -/
theorem out_D (c : Dev nD) (i : grid0.Coords) (arg1 : Memref sig .tc .vmem S1024x1024 .f32) (harg1 : arg1.IsWhole) (arg2 : Memref sig .tc .vmem S1024x512 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x129 .f32) (harg5 : arg5.IsWhole) (arg6 : Memref sig .tc .vmem S129x512 .f32) (harg6 : arg6.IsWhole) (arg7 : Memref sig .tc .vmem S1024x257 .f32) (harg7 : arg7.IsWhole) (arg8 : Memref sig .tc .vmem S257x512 .f32) (harg8 : arg8.IsWhole) (arg9 : Memref sig .tc .vmem S1x512 .f32) (harg9 : arg9.IsWhole) (arg10 : Memref sig .tc .vmem S512x129 .f32) (harg10 : arg10.IsWhole) (arg11 : Memref sig .tc .vmem S1x129 .f32) (harg11 : arg11.IsWhole) (arg12 : Memref sig .tc .vmem S1024x129 .f32) (harg12 : arg12.IsWhole) (arg13 : Memref sig .tc .vmem S1024x512 .f32) (harg13 : arg13.IsWhole) (hc0 : ¬cond0_0 i) (hc1 : ¬cond0_1 i) (hc2 : cond0_2 i) (hc3 : cond0_3 i)
    (x0 : Vec F S1024x1024 .f32) (x1 : Vec F S1024x512 .f32) (x2 : Vec F S1024x1024 .f32) (x3 : Vec F S1024x512 .f32) (x4 : Vec F S1024x129 .f32) (x5 : Vec F S129x512 .f32) (x6 : Vec F S1024x257 .f32) (x7 : Vec F S257x512 .f32) (x8 : Vec F S1x512 .f32) (x9 : Vec F S512x129 .f32) (x10 : Vec F S1x129 .f32) (xs0 : Vec F S1024x512 .f32) :
    out0_D_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 x9 x10 xs0 = k0_pay4 (k0_pay3 xs0 x2 x3) x8 x9 x10 := by
  unfold out0_D_11
  rw [View.read_writes_eq_canon _ _ _ (cover0_D_11 c i arg1 harg1 arg2 harg2 arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 x8 x9 x10 xs0)]
  unfold kernelRun0_D
  dsimp only
  sl_unfold_words
  rw [View.canon_unit_zero hz]
  simp only [View.readAt_eq_ld, View.readCov_unit_zero (S := S1024x512) _ hz, harg1.read_unread, harg2.read_unread, harg3.read_unread, harg4.read_unread, harg5.read_unread, harg6.read_unread, harg7.read_unread, harg8.read_unread, harg9.read_unread, harg10.read_unread, harg11.read_unread, harg13.read_unread, View.ld_unit_zero (S := S1024x1024) hz, View.ld_unit_zero (S := S1024x512) hz, View.ld_unit_zero (S := S1024x129) hz, View.ld_unit_zero (S := S129x512) hz, View.ld_unit_zero (S := S1024x257) hz, View.ld_unit_zero (S := S257x512) hz, View.ld_unit_zero (S := S1x512) hz, View.ld_unit_zero (S := S512x129) hz, View.ld_unit_zero (S := S1x129) hz]

end Cert.KernelIdeal.Pieces

end
-- ==== Proof.PayIdx.lean ====
/-
  The four values the kernel body stores, read at one entry over the extended reals, where a change of float format is the
  identity and a matrix product into a zero accumulator is the plain sum of products.

  The first store of step 0 holds `∑ a p k * wa k h + ∑ r p k * wr k h` (the two one-shot products); the store of a tiled step
  holds `acc p h + ∑ x p k * w k h`; the last step's output holds `∑ max (acc p k + b1 k) 0 * W2 k o + b2 o`.
-/
import proofs.«163590_j69922067579329_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.PayIdx

open Cert.KernelIdeal Cert.KernelIdeal.Gen

/-! ## The matrix products at an entry

For each of the kernel's four contraction shapes: where the left and right operands are read for output entry `i` and
contraction index `q` (row of `i` and `q` on the left; `q` and column of `i` on the right), and from these the product
into a zero accumulator as a sum over `Fin K`. -/

/-! ### The 129-term product (`[1024,129] × [129,512]`) -/

private theorem lhsA_0 (i : S1024x512.Idx) (q : dot_S1024x129_S129x512_S1024x512_1_0_0_1_n_n.contr.Idx) :
    (dot_S1024x129_S129x512_S1024x512_1_0_0_1_n_n.lhsIdx i q 0).val = (i 0).val := by
  unfold DotDims.lhsIdx
  rw [dif_neg (show ¬(0 : Fin S1024x129.rank) ∈ dot_S1024x129_S129x512_S1024x512_1_0_0_1_n_n.lhsBatch by decide), dif_pos (show (0 : Fin S1024x129.rank) ∈ dot_S1024x129_S129x512_S1024x512_1_0_0_1_n_n.lhsNonContracting by decide)]
  rfl
private theorem lhsA_1 (i : S1024x512.Idx) (q : dot_S1024x129_S129x512_S1024x512_1_0_0_1_n_n.contr.Idx) :
    (dot_S1024x129_S129x512_S1024x512_1_0_0_1_n_n.lhsIdx i q 1).val = (q ⟨0, by decide⟩).val :=
  dot_S1024x129_S129x512_S1024x512_1_0_0_1_n_n.lhsIdx_val_of_single rfl i q
private theorem rhsA_0 (i : S1024x512.Idx) (q : dot_S1024x129_S129x512_S1024x512_1_0_0_1_n_n.contr.Idx) :
    (dot_S1024x129_S129x512_S1024x512_1_0_0_1_n_n.rhsIdx i q 0).val = (q ⟨0, by decide⟩).val :=
  dot_S1024x129_S129x512_S1024x512_1_0_0_1_n_n.rhsIdx_val_of_single rfl i q
private theorem rhsA_1 (i : S1024x512.Idx) (q : dot_S1024x129_S129x512_S1024x512_1_0_0_1_n_n.contr.Idx) :
    (dot_S1024x129_S129x512_S1024x512_1_0_0_1_n_n.rhsIdx i q 1).val = (i 1).val := by
  unfold DotDims.rhsIdx
  rw [dif_neg (show ¬(1 : Fin S129x512.rank) ∈ dot_S1024x129_S129x512_S1024x512_1_0_0_1_n_n.rhsBatch by decide), dif_pos (show (1 : Fin S129x512.rank) ∈ dot_S1024x129_S129x512_S1024x512_1_0_0_1_n_n.rhsNonContracting by decide)]
  rfl

/-- Into a zero accumulator, entry `(p, h)` of the 129-term product (`[1024,129] × [129,512]`) is `∑ k, l p k * r k h`: the sum over the
    one contracted axis, re-indexed by that axis's coordinate. -/
private theorem matmulA_at (l : FVec Ideal S1024x129 .bf16) (r : FVec Ideal S129x512 .bf16) (p : Fin 1024) (h : Fin 512) :
    matmul (F := Ideal) dot_S1024x129_S129x512_S1024x512_1_0_0_1_n_n none l r (constant (F := Ideal) S1024x512 .f32 0x00000000#32) (ix2 p h)
      = ∑ k : Fin 129, l (ix2 p k) * r (ix2 k h) := by
  simp only [matmul]
  rw [Ideal.matmul_constant_zero_apply, ← Equiv.sum_comp (contrEquiv1 dot_S1024x129_S129x512_S1024x512_1_0_0_1_n_n 129 rfl rfl).symm]
  refine Finset.sum_congr rfl fun k _ => ?_
  have hk := contrEquiv1_symm_val dot_S1024x129_S129x512_S1024x512_1_0_0_1_n_n 129 rfl rfl k
  have el : dot_S1024x129_S129x512_S1024x512_1_0_0_1_n_n.lhsIdx (ix2 p h) ((contrEquiv1 dot_S1024x129_S129x512_S1024x512_1_0_0_1_n_n 129 rfl rfl).symm k) = ix2 p k := funext fun a => Fin.ext (by
    match a with
    | ⟨0, _⟩ => exact lhsA_0 _ _
    | ⟨1, _⟩ => exact (lhsA_1 _ _).trans hk)
  have er : dot_S1024x129_S129x512_S1024x512_1_0_0_1_n_n.rhsIdx (ix2 p h) ((contrEquiv1 dot_S1024x129_S129x512_S1024x512_1_0_0_1_n_n 129 rfl rfl).symm k) = ix2 k h := funext fun a => Fin.ext (by
    match a with
    | ⟨0, _⟩ => exact (rhsA_0 _ _).trans hk
    | ⟨1, _⟩ => exact rhsA_1 _ _)
  rw [el, er]

/-! ### The 257-term product (`[1024,257] × [257,512]`) -/

private theorem lhsR_0 (i : S1024x512.Idx) (q : dot_S1024x257_S257x512_S1024x512_1_0_0_1_n_n.contr.Idx) :
    (dot_S1024x257_S257x512_S1024x512_1_0_0_1_n_n.lhsIdx i q 0).val = (i 0).val := by
  unfold DotDims.lhsIdx
  rw [dif_neg (show ¬(0 : Fin S1024x257.rank) ∈ dot_S1024x257_S257x512_S1024x512_1_0_0_1_n_n.lhsBatch by decide), dif_pos (show (0 : Fin S1024x257.rank) ∈ dot_S1024x257_S257x512_S1024x512_1_0_0_1_n_n.lhsNonContracting by decide)]
  rfl
private theorem lhsR_1 (i : S1024x512.Idx) (q : dot_S1024x257_S257x512_S1024x512_1_0_0_1_n_n.contr.Idx) :
    (dot_S1024x257_S257x512_S1024x512_1_0_0_1_n_n.lhsIdx i q 1).val = (q ⟨0, by decide⟩).val :=
  dot_S1024x257_S257x512_S1024x512_1_0_0_1_n_n.lhsIdx_val_of_single rfl i q
private theorem rhsR_0 (i : S1024x512.Idx) (q : dot_S1024x257_S257x512_S1024x512_1_0_0_1_n_n.contr.Idx) :
    (dot_S1024x257_S257x512_S1024x512_1_0_0_1_n_n.rhsIdx i q 0).val = (q ⟨0, by decide⟩).val :=
  dot_S1024x257_S257x512_S1024x512_1_0_0_1_n_n.rhsIdx_val_of_single rfl i q
private theorem rhsR_1 (i : S1024x512.Idx) (q : dot_S1024x257_S257x512_S1024x512_1_0_0_1_n_n.contr.Idx) :
    (dot_S1024x257_S257x512_S1024x512_1_0_0_1_n_n.rhsIdx i q 1).val = (i 1).val := by
  unfold DotDims.rhsIdx
  rw [dif_neg (show ¬(1 : Fin S257x512.rank) ∈ dot_S1024x257_S257x512_S1024x512_1_0_0_1_n_n.rhsBatch by decide), dif_pos (show (1 : Fin S257x512.rank) ∈ dot_S1024x257_S257x512_S1024x512_1_0_0_1_n_n.rhsNonContracting by decide)]
  rfl

/-- Into a zero accumulator, entry `(p, h)` of the 257-term product (`[1024,257] × [257,512]`) is `∑ k, l p k * r k h`: the sum over the
    one contracted axis, re-indexed by that axis's coordinate. -/
private theorem matmulR_at (l : FVec Ideal S1024x257 .bf16) (r : FVec Ideal S257x512 .bf16) (p : Fin 1024) (h : Fin 512) :
    matmul (F := Ideal) dot_S1024x257_S257x512_S1024x512_1_0_0_1_n_n none l r (constant (F := Ideal) S1024x512 .f32 0x00000000#32) (ix2 p h)
      = ∑ k : Fin 257, l (ix2 p k) * r (ix2 k h) := by
  simp only [matmul]
  rw [Ideal.matmul_constant_zero_apply, ← Equiv.sum_comp (contrEquiv1 dot_S1024x257_S257x512_S1024x512_1_0_0_1_n_n 257 rfl rfl).symm]
  refine Finset.sum_congr rfl fun k _ => ?_
  have hk := contrEquiv1_symm_val dot_S1024x257_S257x512_S1024x512_1_0_0_1_n_n 257 rfl rfl k
  have el : dot_S1024x257_S257x512_S1024x512_1_0_0_1_n_n.lhsIdx (ix2 p h) ((contrEquiv1 dot_S1024x257_S257x512_S1024x512_1_0_0_1_n_n 257 rfl rfl).symm k) = ix2 p k := funext fun a => Fin.ext (by
    match a with
    | ⟨0, _⟩ => exact lhsR_0 _ _
    | ⟨1, _⟩ => exact (lhsR_1 _ _).trans hk)
  have er : dot_S1024x257_S257x512_S1024x512_1_0_0_1_n_n.rhsIdx (ix2 p h) ((contrEquiv1 dot_S1024x257_S257x512_S1024x512_1_0_0_1_n_n 257 rfl rfl).symm k) = ix2 k h := funext fun a => Fin.ext (by
    match a with
    | ⟨0, _⟩ => exact (rhsR_0 _ _).trans hk
    | ⟨1, _⟩ => exact rhsR_1 _ _)
  rw [el, er]

/-! ### The 1024-term product of a tiled step (`[1024,1024] × [1024,512]`) -/

private theorem lhsT_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
private theorem lhsT_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
private theorem rhsT_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
private theorem rhsT_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- Into a zero accumulator, entry `(p, h)` of the 1024-term product of a tiled step (`[1024,1024] × [1024,512]`) is `∑ k, l p k * r k h`: the sum over the
    one contracted axis, re-indexed by that axis's coordinate. -/
private theorem matmulT_at (l : FVec Ideal S1024x1024 .bf16) (r : FVec Ideal S1024x512 .bf16) (p : Fin 1024) (h : Fin 512) :
    matmul (F := Ideal) dot_S1024x1024_S1024x512_S1024x512_1_0_0_1_n_n none l r (constant (F := Ideal) S1024x512 .f32 0x00000000#32) (ix2 p h)
      = ∑ k : Fin 1024, l (ix2 p k) * r (ix2 k h) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p h) ((contrEquiv1 dot_S1024x1024_S1024x512_S1024x512_1_0_0_1_n_n 1024 rfl rfl).symm k) = ix2 p k := funext fun a => Fin.ext (by
    match a with
    | ⟨0, _⟩ => exact lhsT_0 _ _
    | ⟨1, _⟩ => exact (lhsT_1 _ _).trans hk)
  have er : dot_S1024x1024_S1024x512_S1024x512_1_0_0_1_n_n.rhsIdx (ix2 p h) ((contrEquiv1 dot_S1024x1024_S1024x512_S1024x512_1_0_0_1_n_n 1024 rfl rfl).symm k) = ix2 k h := funext fun a => Fin.ext (by
    match a with
    | ⟨0, _⟩ => exact (rhsT_0 _ _).trans hk
    | ⟨1, _⟩ => exact rhsT_1 _ _)
  rw [el, er]

/-! ### The 512-term product of the second layer (`[1024,512] × [512,129]`) -/

private theorem lhsO_0 (i : S1024x129.Idx) (q : dot_S1024x512_S512x129_S1024x129_1_0_0_1_n_n.contr.Idx) :
    (dot_S1024x512_S512x129_S1024x129_1_0_0_1_n_n.lhsIdx i q 0).val = (i 0).val := by
  unfold DotDims.lhsIdx
  rw [dif_neg (show ¬(0 : Fin S1024x512.rank) ∈ dot_S1024x512_S512x129_S1024x129_1_0_0_1_n_n.lhsBatch by decide), dif_pos (show (0 : Fin S1024x512.rank) ∈ dot_S1024x512_S512x129_S1024x129_1_0_0_1_n_n.lhsNonContracting by decide)]
  rfl
private theorem lhsO_1 (i : S1024x129.Idx) (q : dot_S1024x512_S512x129_S1024x129_1_0_0_1_n_n.contr.Idx) :
    (dot_S1024x512_S512x129_S1024x129_1_0_0_1_n_n.lhsIdx i q 1).val = (q ⟨0, by decide⟩).val :=
  dot_S1024x512_S512x129_S1024x129_1_0_0_1_n_n.lhsIdx_val_of_single rfl i q
private theorem rhsO_0 (i : S1024x129.Idx) (q : dot_S1024x512_S512x129_S1024x129_1_0_0_1_n_n.contr.Idx) :
    (dot_S1024x512_S512x129_S1024x129_1_0_0_1_n_n.rhsIdx i q 0).val = (q ⟨0, by decide⟩).val :=
  dot_S1024x512_S512x129_S1024x129_1_0_0_1_n_n.rhsIdx_val_of_single rfl i q
private theorem rhsO_1 (i : S1024x129.Idx) (q : dot_S1024x512_S512x129_S1024x129_1_0_0_1_n_n.contr.Idx) :
    (dot_S1024x512_S512x129_S1024x129_1_0_0_1_n_n.rhsIdx i q 1).val = (i 1).val := by
  unfold DotDims.rhsIdx
  rw [dif_neg (show ¬(1 : Fin S512x129.rank) ∈ dot_S1024x512_S512x129_S1024x129_1_0_0_1_n_n.rhsBatch by decide), dif_pos (show (1 : Fin S512x129.rank) ∈ dot_S1024x512_S512x129_S1024x129_1_0_0_1_n_n.rhsNonContracting by decide)]
  rfl

/-- Into a zero accumulator, entry `(p, h)` of the 512-term product of the second layer (`[1024,512] × [512,129]`) is `∑ k, l p k * r k h`: the sum over the
    one contracted axis, re-indexed by that axis's coordinate. -/
private theorem matmulO_at (l : FVec Ideal S1024x512 .bf16) (r : FVec Ideal S512x129 .bf16) (p : Fin 1024) (h : Fin 129) :
    matmul (F := Ideal) dot_S1024x512_S512x129_S1024x129_1_0_0_1_n_n none l r (constant (F := Ideal) S1024x129 .f32 0x00000000#32) (ix2 p h)
      = ∑ k : Fin 512, l (ix2 p k) * r (ix2 k h) := by
  simp only [matmul]
  rw [Ideal.matmul_constant_zero_apply, ← Equiv.sum_comp (contrEquiv1 dot_S1024x512_S512x129_S1024x129_1_0_0_1_n_n 512 rfl rfl).symm]
  refine Finset.sum_congr rfl fun k _ => ?_
  have hk := contrEquiv1_symm_val dot_S1024x512_S512x129_S1024x129_1_0_0_1_n_n 512 rfl rfl k
  have el : dot_S1024x512_S512x129_S1024x129_1_0_0_1_n_n.lhsIdx (ix2 p h) ((contrEquiv1 dot_S1024x512_S512x129_S1024x129_1_0_0_1_n_n 512 rfl rfl).symm k) = ix2 p k := funext fun a => Fin.ext (by
    match a with
    | ⟨0, _⟩ => exact lhsO_0 _ _
    | ⟨1, _⟩ => exact (lhsO_1 _ _).trans hk)
  have er : dot_S1024x512_S512x129_S1024x129_1_0_0_1_n_n.rhsIdx (ix2 p h) ((contrEquiv1 dot_S1024x512_S512x129_S1024x129_1_0_0_1_n_n 512 rfl rfl).symm k) = ix2 k h := funext fun a => Fin.ext (by
    match a with
    | ⟨0, _⟩ => exact (rhsO_0 _ _).trans hk
    | ⟨1, _⟩ => exact rhsO_1 _ _)
  rw [el, er]

/-! ## The four stored values at an entry

A cast to the same shape and a change of float format leave an entry as it is; a sum, a maximum and a row broadcast over
all rows are read entry by entry. -/

theorem pay1_at (v12 : Vec Ideal S1024x129 .f32) (v14 : Vec Ideal S129x512 .f32) (v18 : Vec Ideal S1024x257 .f32)
    (v21 : Vec Ideal S257x512 .f32) (p : Fin 1024) (h : Fin 512) :
    k0_pay1 (F := Ideal) v12 v14 v18 v21 (ix2 p h)
      = ∑ k : Fin 129, v12 (ix2 p k) * v14 (ix2 k h) + ∑ k : Fin 257, v18 (ix2 p k) * v21 (ix2 k h) := by
  unfold k0_pay1
  simp only [shapeCast_self]
  rw [addf_apply, matmulA_at, matmulR_at]
  rfl

theorem pay2_at (v12 : Vec Ideal S1024x512 .f32) (v13 : Vec Ideal S1024x1024 .f32) (v16 : Vec Ideal S1024x512 .f32)
    (p : Fin 1024) (h : Fin 512) :
    k0_pay2 (F := Ideal) v12 v13 v16 (ix2 p h) = v12 (ix2 p h) + ∑ k : Fin 1024, v13 (ix2 p k) * v16 (ix2 k h) := by
  unfold k0_pay2
  simp only [shapeCast_self]
  rw [addf_apply, matmulT_at]
  rfl

theorem pay3_at (v12 : Vec Ideal S1024x512 .f32) (v13 : Vec Ideal S1024x1024 .f32) (v15 : Vec Ideal S1024x512 .f32)
    (p : Fin 1024) (h : Fin 512) :
    k0_pay3 (F := Ideal) v12 v13 v15 (ix2 p h) = v12 (ix2 p h) + ∑ k : Fin 1024, v13 (ix2 p k) * v15 (ix2 k h) := by
  unfold k0_pay3
  simp only [shapeCast_self]
  rw [addf_apply, matmulT_at]
  rfl

theorem pay4_at (v12 : Vec Ideal S1024x512 .f32) (v13 : Vec Ideal S1x512 .f32) (v20 : Vec Ideal S512x129 .f32)
    (v23 : Vec Ideal S1x129 .f32) (p : Fin 1024) (o : Fin 129) :
    k0_pay4 (F := Ideal) v12 v13 v20 v23 (ix2 p o)
      = (∑ k : Fin 512, max (v12 (ix2 p k) + v13 (ix2 (0 : Fin 1) k)) (Ideal.ofBits .f32 0x00000000#32) * v20 (ix2 k o))
        + v23 (ix2 (0 : Fin 1) o) := by
  unfold k0_pay4
  simp only [shapeCast_self]
  rw [addf_apply, matmulO_at, broadcastTo_1b_ab_apply]
  refine congrArg (· + v23 (ix2 (0 : Fin 1) o)) (Finset.sum_congr rfl fun k _ => ?_)
  rw [truncf_apply, truncf_apply, maximumf_apply, addf_apply, broadcastTo_1b_ab_apply, broadcast_apply]
  rfl

end Cert.KernelIdeal.PayIdx

end
-- ==== Proof.Spec.lean ====
/-
  A two-layer perceptron on a row made of three inputs laid side by side, entry by entry over the extended reals.

  The input row of sample `p` is `[st p | a p | st1 p]` (16641 + 129 + 16384 = 33154 entries); the first layer is
  `hid p h = ∑ k, row p k * W1 k h`, the output is `∑ k, max (hid p k + b1 k) 0 * W2 k o + b2 o`.

  The same first layer can be accumulated in steps: first the 129 terms of `a` (against rows 16641 … of `W1`) and the
  last 257 terms of `st` (columns 16384 … 16640, against the same rows of `W1`), then sixteen runs of 1024 terms of
  `st`, then sixteen runs of 1024 terms of `st1` (against rows 16770 … of `W1`). Addition of extended reals is
  commutative and associative, so the total of the steps is the one inner product: the range `[0, 33154)` is cut at
  16384, 16641 and 16770, and a run of `1024 * n` consecutive terms is `n` runs of 1024. No finiteness is used.

  Entries are read at natural-number coordinates (`at2 X r c`, zero outside the matrix) so that all sums are sums over
  `Finset.range`.
-/
import Idealize.ShloMosaic.Lib.ValueIdx
import Idealize.ShloMosaic.PureOps.Ideal.Laws
import Mathlib.Algebra.BigOperators.Fin
import Mathlib.Algebra.BigOperators.Intervals

noncomputable section

open scoped BigOperators
open Idealize.ShloMosaic Idealize.ShloMosaic.ValueIdx

namespace Cert.Mlp

/-! ## Entries at natural-number coordinates -/

/-- Entry `(r, c)` of a matrix; zero outside it. -/
def at2 {R C : ℕ} (X : (⟨2, ![R, C]⟩ : Shape).Idx → EReal) (r c : ℕ) : EReal :=
  if h : r < R ∧ c < C then X (ix2 ⟨r, h.1⟩ ⟨c, h.2⟩) else 0

/-- Entry `k` of a vector; zero outside it. -/
def at1 {N : ℕ} (X : (⟨1, ![N]⟩ : Shape).Idx → EReal) (k : ℕ) : EReal :=
  if h : k < N then X (ix1 ⟨k, h⟩) else 0

/-- A matrix at an index is its entry at the index's coordinates. -/
theorem at2_eq {R C : ℕ} (X : (⟨2, ![R, C]⟩ : Shape).Idx → EReal) (i : (⟨2, ![R, C]⟩ : Shape).Idx) (r c : ℕ)
    (h0 : (i 0).val = r) (h1 : (i 1).val = c) : X i = at2 X r c := by
  subst h0 h1
  unfold at2
  rw [dif_pos ⟨(i 0).isLt, (i 1).isLt⟩]
  exact congrArg X (eq_ix2 i)

/-- A vector at an index is its entry at the index's coordinate. -/
theorem at1_eq {N : ℕ} (X : (⟨1, ![N]⟩ : Shape).Idx → EReal) (i : (⟨1, ![N]⟩ : Shape).Idx) (k : ℕ)
    (h0 : (i 0).val = k) : X i = at1 X k := by
  subst h0
  unfold at1
  rw [dif_pos (show (i 0).val < N from (i 0).isLt)]
  exact congrArg X (eq_ix1 i)

/-! ## Sums over runs of consecutive naturals -/

section Sums

variable {M : Type*} [AddCommMonoid M]

/-- `b * n` consecutive terms are `n` runs of `b` terms. -/
theorem sum_range_mul_runs (f : ℕ → M) (b n : ℕ) :
    ∑ k ∈ Finset.range (b * n), f k = ∑ j ∈ Finset.range n, ∑ k ∈ Finset.range b, f (b * j + k) := by
  induction n with
  | zero => simp
  | succ n ih => rw [Nat.mul_succ, Finset.sum_range_add, ih, Finset.sum_range_succ]

/-- The range `[0, 33154)` cut at 16384, 16641 and 16770. -/
theorem sum_range_cut (g : ℕ → M) :
    ∑ k ∈ Finset.range 33154, g k
      = ∑ k ∈ Finset.range 16384, g k + ∑ k ∈ Finset.range 257, g (16384 + k)
        + ∑ k ∈ Finset.range 129, g (16641 + k) + ∑ k ∈ Finset.range 16384, g (16770 + k) := by
  rw [show (33154 : ℕ) = 16384 + 257 + 129 + 16384 from rfl, Finset.sum_range_add, Finset.sum_range_add,
    Finset.sum_range_add]

/-- The total after step `n` of an accumulation that starts from `a0`, adds `T n` at each of the steps 0 … 15 and `U (n - 16)` at
    each later step. -/
def runTot (a0 : M) (T U : ℕ → M) : ℕ → M
  | 0 => a0 + T 0
  | n + 1 => runTot a0 T U n + (if n + 1 < 16 then T (n + 1) else U (n + 1 - 16))

theorem runTot_zero (a0 : M) (T U : ℕ → M) : runTot a0 T U 0 = a0 + T 0 := rfl

theorem runTot_succ (a0 : M) (T U : ℕ → M) (n : ℕ) :
    runTot a0 T U (n + 1) = runTot a0 T U n + (if n + 1 < 16 then T (n + 1) else U (n + 1 - 16)) := rfl

/-- Through step 15 the total is `a0` and the first `n + 1` of the `T`s. -/
theorem runTot_first (a0 : M) (T U : ℕ → M) (n : ℕ) (h : n < 16) :
    runTot a0 T U n = a0 + ∑ j ∈ Finset.range (n + 1), T j := by
  induction n with
  | zero => simp [runTot]
  | succ n ih => rw [runTot_succ, if_pos h, ih (by omega), Finset.sum_range_succ _ (n + 1), add_assoc]

/-- From step 15 on it is `a0`, all sixteen `T`s and the first `d` of the `U`s. -/
theorem runTot_second (a0 : M) (T U : ℕ → M) (d : ℕ) :
    runTot a0 T U (15 + d) = a0 + ∑ j ∈ Finset.range 16, T j + ∑ j ∈ Finset.range d, U j := by
  induction d with
  | zero => simpa using runTot_first a0 T U 15 (by omega)
  | succ d ih =>
    show runTot a0 T U (15 + d + 1) = _
    rw [runTot_succ, if_neg (by omega), ih, show 15 + d + 1 - 16 = d from by omega, Finset.sum_range_succ U d,
      add_assoc]

/-- Moving the two starting terms behind the first long run. -/
theorem start_behind (A R X Y : M) : A + R + X + Y = X + R + A + Y := by
  rw [add_comm A R, add_comm (R + A) X, ← add_assoc]

end Sums

/-! ## The perceptron -/

section Spec

variable (st : (⟨2, ![1024, 16641]⟩ : Shape).Idx → EReal) (a : (⟨2, ![1024, 129]⟩ : Shape).Idx → EReal)
  (st1 : (⟨2, ![1024, 16384]⟩ : Shape).Idx → EReal) (W1 : (⟨2, ![33154, 512]⟩ : Shape).Idx → EReal)
  (b1 : (⟨1, ![512]⟩ : Shape).Idx → EReal) (W2 : (⟨2, ![512, 129]⟩ : Shape).Idx → EReal)
  (b2 : (⟨1, ![129]⟩ : Shape).Idx → EReal)

/-- Term `k` of sample `p`'s first-layer inner product for hidden unit `h`, over `st`. -/
def tSt (p h k : ℕ) : EReal := at2 st p k * at2 W1 k h
/-- The same over `a`, whose entries meet rows 16641 … of `W1`. -/
def tA (p h k : ℕ) : EReal := at2 a p k * at2 W1 (16641 + k) h
/-- The same over `st1`, whose entries meet rows 16770 … of `W1`. -/
def tSt1 (p h k : ℕ) : EReal := at2 st1 p k * at2 W1 (16770 + k) h

/-- What the first step starts from: the terms of `a` and the last 257 terms of `st`. -/
def hid0 (p h : ℕ) : EReal :=
  ∑ k ∈ Finset.range 129, tA a W1 p h k + ∑ k ∈ Finset.range 257, tSt st W1 p h (16384 + k)
/-- Run `j` of 1024 terms of `st`. -/
def runSt (p h j : ℕ) : EReal := ∑ k ∈ Finset.range 1024, tSt st W1 p h (1024 * j + k)
/-- Run `j` of 1024 terms of `st1`. -/
def runSt1 (p h j : ℕ) : EReal := ∑ k ∈ Finset.range 1024, tSt1 st1 W1 p h (1024 * j + k)

/-- The first layer accumulated in steps, after step `n`. -/
def hidSteps (p h n : ℕ) : EReal :=
  runTot (hid0 st a W1 p h) (runSt st W1 p h) (runSt1 st1 W1 p h) n

/-- Entry `k` of sample `p`'s concatenated row. -/
def catRow (p k : ℕ) : EReal :=
  if k < 16641 then at2 st p k else if k < 16770 then at2 a p (k - 16641) else at2 st1 p (k - 16770)

/-- The first layer as one inner product with the concatenated row. -/
def hidCat (p h : ℕ) : EReal := ∑ k ∈ Finset.range 33154, catRow st a st1 p k * at2 W1 k h

/-- The accumulation's total after its last step is the one inner product. -/
theorem hidSteps_last (p h : ℕ) : hidSteps st a st1 W1 p h 31 = hidCat st a st1 W1 p h := by
  unfold hidSteps hidCat
  rw [show (31 : ℕ) = 15 + 16 from rfl, runTot_second, sum_range_cut]
  have e1 : ∑ j ∈ Finset.range 16, runSt st W1 p h j = ∑ k ∈ Finset.range 16384, tSt st W1 p h k := by
    rw [show (16384 : ℕ) = 1024 * 16 from rfl, sum_range_mul_runs]; rfl
  have e2 : ∑ j ∈ Finset.range 16, runSt1 st1 W1 p h j = ∑ k ∈ Finset.range 16384, tSt1 st1 W1 p h k := by
    rw [show (16384 : ℕ) = 1024 * 16 from rfl, sum_range_mul_runs]; rfl
  have c1 : ∑ k ∈ Finset.range 16384, catRow st a st1 p k * at2 W1 k h = ∑ k ∈ Finset.range 16384, tSt st W1 p h k :=
    Finset.sum_congr rfl fun k hk => by
      have hk' := Finset.mem_range.mp hk
      unfold catRow tSt
      rw [if_pos (by omega)]
  have c2 : ∑ k ∈ Finset.range 257, catRow st a st1 p (16384 + k) * at2 W1 (16384 + k) h
      = ∑ k ∈ Finset.range 257, tSt st W1 p h (16384 + k) :=
    Finset.sum_congr rfl fun k hk => by
      have hk' := Finset.mem_range.mp hk
      unfold catRow tSt
      rw [if_pos (by omega)]
  have c3 : ∑ k ∈ Finset.range 129, catRow st a st1 p (16641 + k) * at2 W1 (16641 + k) h
      = ∑ k ∈ Finset.range 129, tA a W1 p h k :=
    Finset.sum_congr rfl fun k hk => by
      have hk' := Finset.mem_range.mp hk
      unfold catRow tA
      rw [if_neg (by omega), if_pos (by omega), show 16641 + k - 16641 = k from by omega]
  have c4 : ∑ k ∈ Finset.range 16384, catRow st a st1 p (16770 + k) * at2 W1 (16770 + k) h
      = ∑ k ∈ Finset.range 16384, tSt1 st1 W1 p h k :=
    Finset.sum_congr rfl fun k hk => by
      unfold catRow tSt1
      rw [if_neg (by omega), if_neg (by omega), show 16770 + k - 16770 = k from by omega]
  rw [e1, e2, c1, c2, c3, c4]
  unfold hid0
  exact start_behind _ _ _ _

/-- The output entry `(p, o)` over a first layer `H`. The zero of the rectifier is kept as the word both programs print. -/
def outOf (H : ℕ → ℕ → EReal) (p o : ℕ) : EReal :=
  (∑ k ∈ Finset.range 512, max (H p k + at1 b1 k) (Ideal.ofBits .f32 0x00000000#32) * at2 W2 k o) + at1 b2 o

/-- The whole output matrix with the first layer accumulated in steps … -/
def outSteps : (⟨2, ![1024, 129]⟩ : Shape).Idx → EReal := fun i =>
  outOf b1 W2 b2 (fun p h => hidSteps st a st1 W1 p h 31) (i 0).val (i 1).val

/-- … and with the first layer as one inner product. -/
def outCat : (⟨2, ![1024, 129]⟩ : Shape).Idx → EReal := fun i =>
  outOf b1 W2 b2 (hidCat st a st1 W1) (i 0).val (i 1).val

/-- They are the same matrix. -/
theorem outSteps_eq_outCat : outSteps st a st1 W1 b1 W2 b2 = outCat st a st1 W1 b1 W2 b2 := by
  funext i
  exact congrArg (fun H => outOf b1 W2 b2 H (i 0).val (i 1).val)
    (funext fun p => funext fun h => hidSteps_last st a st1 W1 p h)

end Spec

end Cert.Mlp

end
-- ==== Proof.Blocks.lean ====
/-
  What each input window's block holds at a grid step, entry by entry, in terms of the program's argument arrays.

  The sixteen-step tiled operands: at step `t` the block of window 0 is columns `1024 * min t 15 …` of `st` (its first 16384
  columns), that of window 1 the same rows of `W1`; the block of window 2 is columns `1024 * min (t - 16) 15 …` of `st1`, that of
  window 3 the same rows of `W1` counted from row 16770. The one-shot operands never move: window 4 is `a`, window 5 rows
  16641 … 16769 of `W1`, window 6 columns 16384 … 16640 of `st`, window 7 rows 16384 … 16640 of `W1`, windows 8 and 10 the two
  bias vectors as one-row matrices, window 9 `W2`.
-/
import proofs.«163590_j69922067579329_1_alg».proof.Proof.Gen.KernelIdeal.Frame
import proofs.«163590_j69922067579329_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Cert.Mlp

namespace Cert.KernelIdeal.Blocks

open Cert.KernelIdeal Cert.KernelIdeal.Gen

variable (m : (ℓ : Loc nD τ sig) → Buf (Elt Ideal) ℓ)

/-- The seven argument arrays on core `c`, as functions of an index into the extended reals. -/
abbrev aSt (c : Dev nD) : S1024x16641.Idx → EReal := m ((c : Thread nD τ).loc main_arg0)
abbrev aA (c : Dev nD) : S1024x129.Idx → EReal := m ((c : Thread nD τ).loc main_arg1)
abbrev aSt1 (c : Dev nD) : S1024x16384.Idx → EReal := m ((c : Thread nD τ).loc main_arg2)
abbrev aW1 (c : Dev nD) : S33154x512.Idx → EReal := m ((c : Thread nD τ).loc main_arg3)
abbrev aB1 (c : Dev nD) : S512.Idx → EReal := m ((c : Thread nD τ).loc main_arg4)
abbrev aW2 (c : Dev nD) : S512x129.Idx → EReal := m ((c : Thread nD τ).loc main_arg5)
abbrev aB2 (c : Dev nD) : S129.Idx → EReal := m ((c : Thread nD τ).loc main_arg6)

/-! ## The arrays the host wrote before the region

Each is a slice (or a slice of a slice, or a one-row reshape) of an argument array. -/

private theorem V_v1 (c : Dev nD) : (V m c main_v1 : S129x512.Idx → EReal)
    = extractStridedSlice S129x512 ![16641, 0] (aW1 m c) slices_S33154x512_S129x512_16641_0 := by
  show StableHlo.after hostOps0 (fun b => m (c, b)) (Proc.devRef .tc main_v1) = _
  after_results

private theorem V_v2 (c : Dev nD) : (V m c main_v2 : S16384x512.Idx → EReal)
    = extractStridedSlice S16384x512 ![16770, 0] (aW1 m c) slices_S33154x512_S16384x512_16770_0 := by
  show StableHlo.after hostOps0 (fun b => m (c, b)) (Proc.devRef .tc main_v2) = _
  after_results

private theorem V_v3 (c : Dev nD) : (V m c main_v3 : S1024x16384.Idx → EReal)
    = extractStridedSlice S1024x16384 ![0, 0] (aSt m c) slices_S1024x16641_S1024x16384_0_0 := by
  show StableHlo.after hostOps0 (fun b => m (c, b)) (Proc.devRef .tc main_v3) = _
  after_results

private theorem V_v4 (c : Dev nD) : (V m c main_v4 : S1024x257.Idx → EReal)
    = extractStridedSlice S1024x257 ![0, 16384] (aSt m c) slices_S1024x16641_S1024x257_0_16384 := by
  show StableHlo.after hostOps0 (fun b => m (c, b)) (Proc.devRef .tc main_v4) = _
  after_results

private theorem V_v5 (c : Dev nD) : (V m c main_v5 : S16384x512.Idx → EReal)
    = extractStridedSlice S16384x512 ![0, 0]
        (extractStridedSlice S16641x512 ![0, 0] (aW1 m c) slices_S33154x512_S16641x512_0_0)
        slices_S16641x512_S16384x512_0_0 := by
  show StableHlo.after hostOps0 (fun b => m (c, b)) (Proc.devRef .tc main_v5) = _
  after_results

private theorem V_v6 (c : Dev nD) : (V m c main_v6 : S257x512.Idx → EReal)
    = extractStridedSlice S257x512 ![16384, 0]
        (extractStridedSlice S16641x512 ![0, 0] (aW1 m c) slices_S33154x512_S16641x512_0_0)
        slices_S16641x512_S257x512_16384_0 := by
  show StableHlo.after hostOps0 (fun b => m (c, b)) (Proc.devRef .tc main_v6) = _
  after_results

private theorem V_v7 (c : Dev nD) : (V m c main_v7 : S1x512.Idx → EReal)
    = shapeCast S1x512 (aB1 m c) shapeCasts_S512_S1x512 := by
  show StableHlo.after hostOps0 (fun b => m (c, b)) (Proc.devRef .tc main_v7) = _
  after_results
  rfl

private theorem V_v8 (c : Dev nD) : (V m c main_v8 : S1x129.Idx → EReal)
    = shapeCast S1x129 (aB2 m c) shapeCasts_S129_S1x129 := by
  show StableHlo.after hostOps0 (fun b => m (c, b)) (Proc.devRef .tc main_v8) = _
  after_results
  rfl

/-- A vector recast as a one-row matrix, read at an index, is the vector at the column. -/
private theorem oneRow_apply {N : ℕ} (x : (⟨1, ![N]⟩ : Shape).Idx → EReal)
    (h : (⟨1, ![N]⟩ : Shape).ShapeCasts (⟨2, ![1, N]⟩ : Shape)) (j : (⟨2, ![1, N]⟩ : Shape).Idx) (k : ℕ)
    (hk : (j 1).val = k) : shapeCast (⟨2, ![1, N]⟩ : Shape) x h j = at1 x k := by
  have hlt : (j 1).val < N := (j 1).isLt
  have h0 : (j 0).val = 0 := by have := (j 0).isLt; exact Nat.lt_one_iff.mp this
  refine (shapeCast_apply x h j (ix1 ⟨(j 1).val, hlt⟩) ?_).trans (at1_eq x _ k hk)
  rw [Shape.rowMajor_val_one, Shape.rowMajor_val_two]
  show (j 1).val = (j 0).val * N + (j 1).val
  rw [h0]; omega

/-! ## The blocks -/

theorem blk0 (c : Dev nD) (t : Fin cfg0.N) (y : S1024x1024.Idx) :
    (iblk m c 0 t : Vec Ideal S1024x1024 .f32) y = at2 (aSt m c) (y 0).val (1024 * min t.val 15 + (y 1).val) := by
  have hi : ∀ t : Fin cfg0.N, win0_0.index t 0 = 0 ∧ win0_0.index t 1 = min t.val 15 := by decide +kernel
  unfold iblk
  rw [View.read_apply]
  show (V m c main_v3 : S1024x16384.Idx → EReal) (((cfg0.win 0).blk t).view.emb y) = _
  rw [V_v3]
  unfold extractStridedSlice
  refine at2_eq _ _ _ _ ?_ ?_
  · show 0 + (win0_0.index t 0 * 1024 + 1 * (y 0).val) = _
    rw [(hi t).1]; omega
  · show 0 + (win0_0.index t 1 * 1024 + 1 * (y 1).val) = _
    rw [(hi t).2]; omega

theorem blk1 (c : Dev nD) (t : Fin cfg0.N) (y : S1024x512.Idx) :
    (iblk m c 1 t : Vec Ideal S1024x512 .f32) y = at2 (aW1 m c) (1024 * min t.val 15 + (y 0).val) (y 1).val := by
  have hi : ∀ t : Fin cfg0.N, win0_1.index t 0 = min t.val 15 ∧ win0_1.index t 1 = 0 := by decide +kernel
  unfold iblk
  rw [View.read_apply]
  show (V m c main_v5 : S16384x512.Idx → EReal) (((cfg0.win 1).blk t).view.emb y) = _
  rw [V_v5]
  unfold extractStridedSlice
  refine at2_eq _ _ _ _ ?_ ?_
  · show 0 + (0 + (win0_1.index t 0 * 1024 + 1 * (y 0).val)) = _
    rw [(hi t).1]; omega
  · show 0 + (0 + (win0_1.index t 1 * 512 + 1 * (y 1).val)) = _
    rw [(hi t).2]; omega

theorem blk2 (c : Dev nD) (t : Fin cfg0.N) (y : S1024x1024.Idx) :
    (iblk m c 2 t : Vec Ideal S1024x1024 .f32) y = at2 (aSt1 m c) (y 0).val (1024 * min (t.val - 16) 15 + (y 1).val) := by
  have hi : ∀ t : Fin cfg0.N, win0_2.index t 0 = 0 ∧ win0_2.index t 1 = min (t.val - 16) 15 := by decide +kernel
  unfold iblk
  rw [View.read_apply]
  show V m c main_arg2 (((cfg0.win 2).blk t).view.emb y) = _
  rw [V_main_arg2]
  refine at2_eq _ _ _ _ ?_ ?_
  · show win0_2.index t 0 * 1024 + 1 * (y 0).val = _
    rw [(hi t).1]; omega
  · show win0_2.index t 1 * 1024 + 1 * (y 1).val = _
    rw [(hi t).2]; omega

theorem blk3 (c : Dev nD) (t : Fin cfg0.N) (y : S1024x512.Idx) :
    (iblk m c 3 t : Vec Ideal S1024x512 .f32) y
      = at2 (aW1 m c) (16770 + (1024 * min (t.val - 16) 15 + (y 0).val)) (y 1).val := by
  have hi : ∀ t : Fin cfg0.N, win0_3.index t 0 = min (t.val - 16) 15 ∧ win0_3.index t 1 = 0 := by decide +kernel
  unfold iblk
  rw [View.read_apply]
  show (V m c main_v2 : S16384x512.Idx → EReal) (((cfg0.win 3).blk t).view.emb y) = _
  rw [V_v2]
  unfold extractStridedSlice
  refine at2_eq _ _ _ _ ?_ ?_
  · show 16770 + (win0_3.index t 0 * 1024 + 1 * (y 0).val) = _
    rw [(hi t).1]; omega
  · show 0 + (win0_3.index t 1 * 512 + 1 * (y 1).val) = _
    rw [(hi t).2]; omega

theorem blk4 (c : Dev nD) (t : Fin cfg0.N) (y : S1024x129.Idx) :
    (iblk m c 4 t : Vec Ideal S1024x129 .f32) y = at2 (aA m c) (y 0).val (y 1).val := by
  have hi : ∀ t : Fin cfg0.N, win0_4.index t 0 = 0 ∧ win0_4.index t 1 = 0 := by decide +kernel
  unfold iblk
  rw [View.read_apply]
  show V m c main_arg1 (((cfg0.win 4).blk t).view.emb y) = _
  rw [V_main_arg1]
  refine at2_eq _ _ _ _ ?_ ?_
  · show win0_4.index t 0 * 1024 + 1 * (y 0).val = _
    rw [(hi t).1]; omega
  · show win0_4.index t 1 * 129 + 1 * (y 1).val = _
    rw [(hi t).2]; omega

theorem blk5 (c : Dev nD) (t : Fin cfg0.N) (y : S129x512.Idx) :
    (iblk m c 5 t : Vec Ideal S129x512 .f32) y = at2 (aW1 m c) (16641 + (y 0).val) (y 1).val := by
  have hi : ∀ t : Fin cfg0.N, win0_5.index t 0 = 0 ∧ win0_5.index t 1 = 0 := by decide +kernel
  unfold iblk
  rw [View.read_apply]
  show (V m c main_v1 : S129x512.Idx → EReal) (((cfg0.win 5).blk t).view.emb y) = _
  rw [V_v1]
  unfold extractStridedSlice
  refine at2_eq _ _ _ _ ?_ ?_
  · show 16641 + (win0_5.index t 0 * 129 + 1 * (y 0).val) = _
    rw [(hi t).1]; omega
  · show 0 + (win0_5.index t 1 * 512 + 1 * (y 1).val) = _
    rw [(hi t).2]; omega

theorem blk6 (c : Dev nD) (t : Fin cfg0.N) (y : S1024x257.Idx) :
    (iblk m c 6 t : Vec Ideal S1024x257 .f32) y = at2 (aSt m c) (y 0).val (16384 + (y 1).val) := by
  have hi : ∀ t : Fin cfg0.N, win0_6.index t 0 = 0 ∧ win0_6.index t 1 = 0 := by decide +kernel
  unfold iblk
  rw [View.read_apply]
  show (V m c main_v4 : S1024x257.Idx → EReal) (((cfg0.win 6).blk t).view.emb y) = _
  rw [V_v4]
  unfold extractStridedSlice
  refine at2_eq _ _ _ _ ?_ ?_
  · show 0 + (win0_6.index t 0 * 1024 + 1 * (y 0).val) = _
    rw [(hi t).1]; omega
  · show 16384 + (win0_6.index t 1 * 257 + 1 * (y 1).val) = _
    rw [(hi t).2]; omega

theorem blk7 (c : Dev nD) (t : Fin cfg0.N) (y : S257x512.Idx) :
    (iblk m c 7 t : Vec Ideal S257x512 .f32) y = at2 (aW1 m c) (16384 + (y 0).val) (y 1).val := by
  have hi : ∀ t : Fin cfg0.N, win0_7.index t 0 = 0 ∧ win0_7.index t 1 = 0 := by decide +kernel
  unfold iblk
  rw [View.read_apply]
  show (V m c main_v6 : S257x512.Idx → EReal) (((cfg0.win 7).blk t).view.emb y) = _
  rw [V_v6]
  unfold extractStridedSlice
  refine at2_eq _ _ _ _ ?_ ?_
  · show 0 + (16384 + (win0_7.index t 0 * 257 + 1 * (y 0).val)) = _
    rw [(hi t).1]; omega
  · show 0 + (0 + (win0_7.index t 1 * 512 + 1 * (y 1).val)) = _
    rw [(hi t).2]; omega

theorem blk8 (c : Dev nD) (t : Fin cfg0.N) (y : S1x512.Idx) :
    (iblk m c 8 t : Vec Ideal S1x512 .f32) y = at1 (aB1 m c) (y 1).val := by
  have hi : ∀ t : Fin cfg0.N, win0_8.index t 0 = 0 ∧ win0_8.index t 1 = 0 := by decide +kernel
  unfold iblk
  rw [View.read_apply]
  show (V m c main_v7 : S1x512.Idx → EReal) (((cfg0.win 8).blk t).view.emb y) = _
  rw [V_v7]
  refine oneRow_apply _ _ _ _ ?_
  show win0_8.index t 1 * 512 + 1 * (y 1).val = _
  rw [(hi t).2]; omega

theorem blk9 (c : Dev nD) (t : Fin cfg0.N) (y : S512x129.Idx) :
    (iblk m c 9 t : Vec Ideal S512x129 .f32) y = at2 (aW2 m c) (y 0).val (y 1).val := by
  have hi : ∀ t : Fin cfg0.N, win0_9.index t 0 = 0 ∧ win0_9.index t 1 = 0 := by decide +kernel
  unfold iblk
  rw [View.read_apply]
  show V m c main_arg5 (((cfg0.win 9).blk t).view.emb y) = _
  rw [V_main_arg5]
  refine at2_eq _ _ _ _ ?_ ?_
  · show win0_9.index t 0 * 512 + 1 * (y 0).val = _
    rw [(hi t).1]; omega
  · show win0_9.index t 1 * 129 + 1 * (y 1).val = _
    rw [(hi t).2]; omega

theorem blk10 (c : Dev nD) (t : Fin cfg0.N) (y : S1x129.Idx) :
    (iblk m c 10 t : Vec Ideal S1x129 .f32) y = at1 (aB2 m c) (y 1).val := by
  have hi : ∀ t : Fin cfg0.N, win0_10.index t 0 = 0 ∧ win0_10.index t 1 = 0 := by decide +kernel
  unfold iblk
  rw [View.read_apply]
  show (V m c main_v8 : S1x129.Idx → EReal) (((cfg0.win 10).blk t).view.emb y) = _
  rw [V_v8]
  refine oneRow_apply _ _ _ _ ?_
  show win0_10.index t 1 * 129 + 1 * (y 1).val = _
  rw [(hi t).2]; omega

end Cert.KernelIdeal.Blocks

end
-- ==== Proof.Chain.lean ====
/-
  The accumulator after each grid step, entry by entry, and the output block of the last step.

  By induction on the step: after step `n` the accumulator's entry `(p, h)` is the total `hidSteps … p h n` of the
  specification — the two one-shot inner products and the first run of 1024 terms at step 0, one more run of the first
  tiled operand at each of the steps 1 … 15, one more run of the second at each of the steps 16 … 31. A step's update is
  the body's own arithmetic of the blocks it loads (the four cases' values), each block entry is an entry of an argument
  array, and a sum over the 1024 positions of a tile is a sum over a run of consecutive naturals. At step 31 the output
  block is the second layer over the accumulator the same step has just stored.
-/
import proofs.«163590_j69922067579329_1_alg».proof.Proof.Pieces
import proofs.«163590_j69922067579329_1_alg».proof.Proof.PayIdx
import proofs.«163590_j69922067579329_1_alg».proof.Proof.Blocks
import proofs.«163590_j69922067579329_1_alg».proof.Proof.Spec
import Mathlib.Algebra.BigOperators.Fin

set_option maxRecDepth 16384

noncomputable section

open scoped BigOperators
open Idealize.ShloMosaic Idealize.ShloMosaic.TcCoe Idealize.SL.Sem Idealize.ShloMosaic.ValueIdx
open Cert.Mlp

namespace Cert.KernelIdeal.Chain

open Cert.KernelIdeal Cert.KernelIdeal.Gen Cert.KernelIdeal.Blocks Cert.KernelIdeal.PayIdx Cert.KernelIdeal.Pieces

variable (m : (ℓ : Loc nD τ sig) → Buf (Elt Ideal) ℓ)

/-! ## The input blocks at their literal shapes, and their entries -/

abbrev b0 (c : Dev nD) (t : Fin cfg0.N) : Vec Ideal S1024x1024 .f32 := iblk m c 0 t
abbrev b1 (c : Dev nD) (t : Fin cfg0.N) : Vec Ideal S1024x512 .f32 := iblk m c 1 t
abbrev b2 (c : Dev nD) (t : Fin cfg0.N) : Vec Ideal S1024x1024 .f32 := iblk m c 2 t
abbrev b3 (c : Dev nD) (t : Fin cfg0.N) : Vec Ideal S1024x512 .f32 := iblk m c 3 t
abbrev b4 (c : Dev nD) (t : Fin cfg0.N) : Vec Ideal S1024x129 .f32 := iblk m c 4 t
abbrev b5 (c : Dev nD) (t : Fin cfg0.N) : Vec Ideal S129x512 .f32 := iblk m c 5 t
abbrev b6 (c : Dev nD) (t : Fin cfg0.N) : Vec Ideal S1024x257 .f32 := iblk m c 6 t
abbrev b7 (c : Dev nD) (t : Fin cfg0.N) : Vec Ideal S257x512 .f32 := iblk m c 7 t
abbrev b8 (c : Dev nD) (t : Fin cfg0.N) : Vec Ideal S1x512 .f32 := iblk m c 8 t
abbrev b9 (c : Dev nD) (t : Fin cfg0.N) : Vec Ideal S512x129 .f32 := iblk m c 9 t
abbrev b10 (c : Dev nD) (t : Fin cfg0.N) : Vec Ideal S1x129 .f32 := iblk m c 10 t

theorem b0_at (c : Dev nD) (t : Fin cfg0.N) (p : Fin 1024) (k : Fin 1024) :
    b0 m c t (ix2 p k) = at2 (aSt m c) p.val (1024 * min t.val 15 + k.val) := blk0 m c t (ix2 p k)
theorem b1_at (c : Dev nD) (t : Fin cfg0.N) (k : Fin 1024) (h : Fin 512) :
    b1 m c t (ix2 k h) = at2 (aW1 m c) (1024 * min t.val 15 + k.val) h.val := blk1 m c t (ix2 k h)
theorem b2_at (c : Dev nD) (t : Fin cfg0.N) (p : Fin 1024) (k : Fin 1024) :
    b2 m c t (ix2 p k) = at2 (aSt1 m c) p.val (1024 * min (t.val - 16) 15 + k.val) := blk2 m c t (ix2 p k)
theorem b3_at (c : Dev nD) (t : Fin cfg0.N) (k : Fin 1024) (h : Fin 512) :
    b3 m c t (ix2 k h) = at2 (aW1 m c) (16770 + (1024 * min (t.val - 16) 15 + k.val)) h.val := blk3 m c t (ix2 k h)
theorem b4_at (c : Dev nD) (t : Fin cfg0.N) (p : Fin 1024) (k : Fin 129) :
    b4 m c t (ix2 p k) = at2 (aA m c) p.val k.val := blk4 m c t (ix2 p k)
theorem b5_at (c : Dev nD) (t : Fin cfg0.N) (k : Fin 129) (h : Fin 512) :
    b5 m c t (ix2 k h) = at2 (aW1 m c) (16641 + k.val) h.val := blk5 m c t (ix2 k h)
theorem b6_at (c : Dev nD) (t : Fin cfg0.N) (p : Fin 1024) (k : Fin 257) :
    b6 m c t (ix2 p k) = at2 (aSt m c) p.val (16384 + k.val) := blk6 m c t (ix2 p k)
theorem b7_at (c : Dev nD) (t : Fin cfg0.N) (k : Fin 257) (h : Fin 512) :
    b7 m c t (ix2 k h) = at2 (aW1 m c) (16384 + k.val) h.val := blk7 m c t (ix2 k h)
theorem b8_at (c : Dev nD) (t : Fin cfg0.N) (k : Fin 512) :
    b8 m c t (ix2 (0 : Fin 1) k) = at1 (aB1 m c) k.val := blk8 m c t (ix2 (0 : Fin 1) k)
theorem b9_at (c : Dev nD) (t : Fin cfg0.N) (k : Fin 512) (o : Fin 129) :
    b9 m c t (ix2 k o) = at2 (aW2 m c) k.val o.val := blk9 m c t (ix2 k o)
theorem b10_at (c : Dev nD) (t : Fin cfg0.N) (o : Fin 129) :
    b10 m c t (ix2 (0 : Fin 1) o) = at1 (aB2 m c) o.val := blk10 m c t (ix2 (0 : Fin 1) o)

/-- A sum over the positions of a tile, its terms functions of the position's number, is the sum over the run. -/
theorem sum_fin_range {n : ℕ} (f : ℕ → EReal) (g : Fin n → EReal) (hfg : ∀ k : Fin n, g k = f k.val) :
    ∑ k : Fin n, g k = ∑ k ∈ Finset.range n, f k := by
  rw [← Fin.sum_univ_eq_sum_range f n]
  exact Finset.sum_congr rfl fun k _ => hfg k

/-! ## One step, by case -/

/-- Step 0. -/
theorem step_A (c : Dev nD) (t : Fin cfg0.N) (h0 : t.val % 32 = 0) (h1 : t.val < 16) (h2 : ¬16 ≤ t.val)
    (h3 : ¬t.val % 32 = 31) :
    (outsAt0 m c t.val t.isLt).2
      = k0_pay2 (k0_pay1 (b4 m c t) (b5 m c t) (b6 m c t) (b7 m c t)) (b0 m c t) (b1 m c t) := by
  rw [outsAt0_A m c t h0 h1 h2 h3]
  dsimp only
  exact acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- A step 1 … 15. -/
theorem step_B (c : Dev nD) (t : Fin cfg0.N) (h0 : ¬t.val % 32 = 0) (h1 : t.val < 16) (h2 : ¬16 ≤ t.val)
    (h3 : ¬t.val % 32 = 31) :
    (outsAt0 m c t.val t.isLt).2 = k0_pay2 (outsAt0 m c (t.val - 1) (Nat.lt_of_le_of_lt (Nat.sub_le _ _) t.isLt)).2 (b0 m c t) (b1 m c t) := by
  rw [outsAt0_B m c t h0 h1 h2 h3]
  dsimp only
  exact acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2

/-- A step 16 … 30. -/
theorem step_C (c : Dev nD) (t : Fin cfg0.N) (h0 : ¬t.val % 32 = 0) (h1 : ¬t.val < 16) (h2 : 16 ≤ t.val)
    (h3 : ¬t.val % 32 = 31) :
    (outsAt0 m c t.val t.isLt).2 = k0_pay3 (outsAt0 m c (t.val - 1) (Nat.lt_of_le_of_lt (Nat.sub_le _ _) t.isLt)).2 (b2 m c t) (b3 m c t) := by
  rw [outsAt0_C m c t h0 h1 h2 h3]
  dsimp only
  exact acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2

/-- Step 31: the accumulator … -/
theorem step_D (c : Dev nD) (t : Fin cfg0.N) (h0 : ¬t.val % 32 = 0) (h1 : ¬t.val < 16) (h2 : 16 ≤ t.val)
    (h3 : t.val % 32 = 31) :
    (outsAt0 m c t.val t.isLt).2 = k0_pay3 (outsAt0 m c (t.val - 1) (Nat.lt_of_le_of_lt (Nat.sub_le _ _) t.isLt)).2 (b2 m c t) (b3 m c t) := by
  rw [outsAt0_D m c t h0 h1 h2 h3]
  dsimp only
  exact acc_D (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2

/-- … and the output block, over the accumulator of the same step. -/
theorem step_out (c : Dev nD) (t : Fin cfg0.N) (h0 : ¬t.val % 32 = 0) (h1 : ¬t.val < 16) (h2 : 16 ≤ t.val)
    (h3 : t.val % 32 = 31) :
    (outsAt0 m c t.val t.isLt).1 = k0_pay4 (outsAt0 m c t.val t.isLt).2 (b8 m c t) (b9 m c t) (b10 m c t) := by
  rw [step_D m c t h0 h1 h2 h3, outsAt0_D m c t h0 h1 h2 h3]
  dsimp only
  exact out_D (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2

/-! ## The accumulator after every step -/

/-- The tile sums of a step 0 … 15 and of a step 16 … 31, as runs of the specification. -/
theorem tile_st (c : Dev nD) (t : Fin cfg0.N) (ht : t.val < 16) (p : Fin 1024) (h : Fin 512) :
    ∑ k : Fin 1024, b0 m c t (ix2 p k) * b1 m c t (ix2 k h) = runSt (aSt m c) (aW1 m c) p.val h.val t.val := by
  unfold runSt
  refine sum_fin_range (fun k => tSt (aSt m c) (aW1 m c) p.val h.val (1024 * t.val + k)) _ fun k => ?_
  rw [b0_at, b1_at, Nat.min_eq_left (by omega)]
  rfl

theorem tile_st1 (c : Dev nD) (t : Fin cfg0.N) (ht : 16 ≤ t.val) (p : Fin 1024) (h : Fin 512) :
    ∑ k : Fin 1024, b2 m c t (ix2 p k) * b3 m c t (ix2 k h)
      = runSt1 (aSt1 m c) (aW1 m c) p.val h.val (t.val - 16) := by
  have hN : cfg0.N = 32 := N_0
  have htN : t.val < 32 := hN ▸ t.isLt
  unfold runSt1
  refine sum_fin_range (fun k => tSt1 (aSt1 m c) (aW1 m c) p.val h.val (1024 * (t.val - 16) + k)) _ fun k => ?_
  rw [b2_at, b3_at, Nat.min_eq_left (by omega)]
  rfl

/-- The one-shot products of step 0. -/
theorem start_at (c : Dev nD) (t : Fin cfg0.N) (p : Fin 1024) (h : Fin 512) :
    ∑ k : Fin 129, b4 m c t (ix2 p k) * b5 m c t (ix2 k h) + ∑ k : Fin 257, b6 m c t (ix2 p k) * b7 m c t (ix2 k h)
      = hid0 (aSt m c) (aA m c) (aW1 m c) p.val h.val := by
  unfold hid0
  rw [sum_fin_range (fun k => tA (aA m c) (aW1 m c) p.val h.val k) _ fun k => by rw [b4_at, b5_at]; rfl,
    sum_fin_range (fun k => tSt (aSt m c) (aW1 m c) p.val h.val (16384 + k)) _ fun k => by rw [b6_at, b7_at]; rfl]

theorem acc_at (c : Dev nD) : ∀ (n : ℕ) (hn : n < cfg0.N) (p : Fin 1024) (h : Fin 512),
    (outsAt0 m c n hn).2 (ix2 p h) = hidSteps (aSt m c) (aA m c) (aSt1 m c) (aW1 m c) p.val h.val n
  | 0, hn, p, h => by
    have e : (outsAt0 m c 0 hn).2
        = k0_pay2 (k0_pay1 (b4 m c ⟨0, hn⟩) (b5 m c ⟨0, hn⟩) (b6 m c ⟨0, hn⟩) (b7 m c ⟨0, hn⟩)) (b0 m c ⟨0, hn⟩) (b1 m c ⟨0, hn⟩) :=
      step_A m c ⟨0, hn⟩ (Nat.zero_mod 32) (by show (0 : ℕ) < 16; omega) (by show ¬16 ≤ (0 : ℕ); omega)
        (by show ¬(0 : ℕ) % 32 = 31; omega)
    rw [e, pay2_at, pay1_at, start_at, tile_st m c ⟨0, hn⟩ (by show (0 : ℕ) < 16; omega)]
    rfl
  | n + 1, hn, p, h => by
    have hN : cfg0.N = 32 := N_0
    have hn' : n + 1 < 32 := hN ▸ hn
    have ih := acc_at c n (Nat.lt_of_succ_lt hn) p h
    unfold hidSteps at ih ⊢
    rw [runTot_succ]
    by_cases h1 : n + 1 < 16
    · have e : (outsAt0 m c (n + 1) hn).2
          = k0_pay2 (outsAt0 m c n (Nat.lt_of_succ_lt hn)).2 (b0 m c ⟨n + 1, hn⟩) (b1 m c ⟨n + 1, hn⟩) :=
        step_B m c ⟨n + 1, hn⟩ (by show ¬(n + 1) % 32 = 0; omega) h1 (by show ¬16 ≤ n + 1; omega)
          (by show ¬(n + 1) % 32 = 31; omega)
      rw [e, pay2_at, ih, tile_st m c ⟨n + 1, hn⟩ h1, if_pos h1]
    · have e : (outsAt0 m c (n + 1) hn).2
          = k0_pay3 (outsAt0 m c n (Nat.lt_of_succ_lt hn)).2 (b2 m c ⟨n + 1, hn⟩) (b3 m c ⟨n + 1, hn⟩) := by
        by_cases h3 : (n + 1) % 32 = 31
        · exact step_D m c ⟨n + 1, hn⟩ (by show ¬(n + 1) % 32 = 0; omega) h1 (by show 16 ≤ n + 1; omega) h3
        · exact step_C m c ⟨n + 1, hn⟩ (by show ¬(n + 1) % 32 = 0; omega) h1 (by show 16 ≤ n + 1; omega) h3
      rw [e, pay3_at, ih, tile_st1 m c ⟨n + 1, hn⟩ (by show 16 ≤ n + 1; omega), if_neg h1]

/-! ## The output block of the last step -/

/-- The grid's last step. -/
abbrev tLast : Fin cfg0.N := ⟨31, by rw [show cfg0.N = 32 from N_0]; decide⟩

/-- The output block the last step writes is the specification's output matrix. -/
theorem out_last (c : Dev nD) :
    (outsAt0 m c tLast.val tLast.isLt).1
      = outSteps (aSt m c) (aA m c) (aSt1 m c) (aW1 m c) (aB1 m c) (aW2 m c) (aB2 m c) := by
  funext j
  obtain ⟨p, o, rfl⟩ : ∃ (p : Fin 1024) (o : Fin 129), j = ix2 p o := ⟨j 0, j 1, eq_ix2 j⟩
  rw [step_out m c tLast (by decide) (by decide) (by decide) (by decide), pay4_at]
  unfold outSteps outOf
  rw [b10_at, sum_fin_range (fun k => max (hidSteps (aSt m c) (aA m c) (aSt1 m c) (aW1 m c) p.val k 31 + at1 (aB1 m c) k)
      (Ideal.ofBits .f32 0x00000000#32) * at2 (aW2 m c) k o.val) _ fun k => by
        rw [acc_at m c 31 tLast.isLt p k, b8_at, b9_at]]

end Cert.KernelIdeal.Chain

end
-- ==== Proof.KernelValue.lean ====
/-
  What the idealized kernel's run leaves in its result.

  The output window is written back once, after the last grid step, and its one block is the whole [1024, 129] array; so
  the array ends at the specification's output matrix (the second layer over the accumulator's total), and the program's
  result is that matrix flattened row by row. The seven arguments are left as they were.
-/
import proofs.«163590_j69922067579329_1_alg».proof.Proof.Chain
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)
open Cert.Mlp

namespace Cert.KernelIdeal.KValue

open Cert.KernelIdeal Cert.KernelIdeal.Gen Cert.KernelIdeal.Blocks Cert.KernelIdeal.Chain

variable (m : (ℓ : Loc nD τ sig) → Buf (Elt Ideal) ℓ) (ρ : Dev nD → PrngReg)

/-- The output matrix of the specification over core `c`'s arguments. -/
abbrev outMat (c : Dev nD) : S1024x129.Idx → EReal :=
  outSteps (aSt m c) (aA m c) (aSt1 m c) (aW1 m c) (aB1 m c) (aW2 m c) (aB2 m c)

/-- The one write-back, after step 31, writes the output matrix: block (0, 0) of the array is the array. -/
theorem flushed_eq (c : Dev nD) (t : Fin cfg0.N) (hf : (cfg0.win 11).flush t = true) :
    (dats m 0 c).flushed 11 t = ((cfg0.win 11).blk t).view.read (Elt Ideal) (outMat m c) := by
  have hN : cfg0.N = 32 := N_0
  have h31 : t.val = 31 := by have := (flush0_11 t).mp hf; have := t.isLt; omega
  obtain rfl : t = tLast := Fin.ext h31
  show (cfg0.win 11).cut (grid0.coords tLast) ((dats m 0 c).after 11 tLast) = _
  rw [after0_11, out_last]
  have hz' : (fun a => win0_11.index tLast a * main_v9.ty.shape.size a) = fun _ => 0 :=
    funext fun a => by fin_cases a <;> decide +kernel
  exact (Memref.read_access_unit_zero (Elt Ideal) main_v9 hz' (fun a => by rw [congrFun hz' a]; simp) (outMat m c)).symm

/-- Every entry of the array lies in that block, so the array ends at the output matrix. -/
theorem final (c : Dev nD) : (dats m 0 c).arrAt 11 cfg0.N = outMat m c :=
  (dats m 0 c).arrAt_eq_of_cover 11 (outMat m c) (flushed_eq m c) fun i =>
    ⟨tLast, (flush0_11 tLast).mpr rfl, by
      show i ∈ ((View.whole main_v9).slice (win0_11.rect tLast)).set
      rw [View.set_slice_whole, Rect.mem_set_unit]
      have hw : ∀ a : Fin 2, win0_11.index tLast a * win0_11.size a = 0
          ∧ win0_11.xsize (grid0.coords tLast) a = (![1024, 129] : Fin 2 → ℕ) a := by decide +kernel
      intro a
      show win0_11.index tLast a * win0_11.size a ≤ (i a : Nat)
        ∧ (i a : Nat) < win0_11.index tLast a * win0_11.size a + win0_11.xsize (grid0.coords tLast) a
      rw [(hw a).1, (hw a).2]
      exact ⟨Nat.zero_le _, by rw [Nat.zero_add]; exact (i a).isLt⟩⟩

/-- The host operation after the region flattens the array. -/
theorem tail_eq (c : Dev nD) :
    Pipeline.afterTail₀ cfgs (dats m) 0 (V0 m) [hostOps1] c main_v10
      = shapeCast S132096 (outMat m c) shapeCasts_S1024x129_S132096 := by
  unfold Pipeline.afterTail₀
  show StableHlo.after hostOps1 _ (Proc.devRef .tc main_v10) = _
  after_results
  have e : Pipeline.withArrays spec0 c (V0 m c) (fun w => (dats m 0 c).arrAt w cfg0.N)
      (Proc.devRef .tc (Pipeline.arrRef spec0 11)) = outMat m c :=
    (Pipeline.withArrays_arr spec0 launch0.win.arr_inj c (V0 m c) (fun w => (dats m 0 c).arrAt w cfg0.N) 11).trans
      (final m c)
  funext i
  show shapeCast S132096 (Pipeline.withArrays spec0 c (V0 m c) (fun w => (dats m 0 c).arrAt w cfg0.N)
      (Proc.devRef .tc (Pipeline.arrRef spec0 11))) shapeCasts_S1024x129_S132096 i = _
  rw [e]

/-- The run: the result is the flattened output matrix, the arguments are unchanged. An argument a window stages is read off
    the window's array, which an input window leaves as it found it; the others are among the buffers the region does not touch. -/
theorem run : θ_run defs (onTc (τ := τ) (main (F := Ideal))) ⟨m, fun _ => 0, ρ⟩ fun r => ∀ c : Dev nD,
      r.2.mem ((c.tc : Thread nD τ).loc main_v10) = shapeCast S132096 (outMat m c) shapeCasts_S1024x129_S132096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).1 4).trans (((dats m 0 c).arrAt_in 4 rfl _).trans ((A_eq m c 4).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 9).trans (((dats m 0 c).arrAt_in 9 rfl _).trans ((A_eq m c 9).trans (V_main_arg5 m c))),
      ((h c).2 main_arg6 (Pipeline.mem_restRefs_of main_arg6 (by decide) (by decide))).trans (W_main_arg6 m (dats m) c)⟩)
    (run_main m ρ)

end Cert.KernelIdeal.KValue

end
-- ==== Proof.RefValue.lean ====
/-
  The reference program's output matrix (before its final flattening) is the perceptron over the concatenated row, entry by
  entry: the concatenation read at `(p, k)` is `st`, `a` or `st1` according to where `k` falls, the two products are sums over
  their contracted axis, the biases are broadcast along the rows.
-/
import proofs.«163590_j69922067579329_1_alg».proof.Proof.Gen.ReferenceIdeal.Read
import proofs.«163590_j69922067579329_1_alg».proof.Proof.Spec
import Idealize.ShloMosaic.Lib.Pipeline.Value
import Idealize.ShloMosaic.Lib.ValueIdx
import Idealize.ShloMosaic.PureOps.Ideal.Laws
import Mathlib.Algebra.BigOperators.Fin

noncomputable section

open scoped BigOperators
open Idealize.ShloMosaic Idealize.ShloMosaic.TcCoe Idealize.SL.Sem Idealize.ShloMosaic.ValueIdx
open Cert.Mlp

namespace Cert.ReferenceIdeal.RefValue

open Cert.ReferenceIdeal Cert.ReferenceIdeal.Gen Cert.ReferenceIdeal.Read

/-- The concatenated row read at `(p, k)`: the piece whose span of columns holds `k`. -/
private theorem v0_at (x0 : S1024x16641.Idx → EReal) (x1 : S1024x129.Idx → EReal) (x2 : S1024x16384.Idx → EReal)
    (i : S1024x512.Idx) (k : Fin 33154) :
    val_main_v0 (F := Ideal) x0 x1 x2 (lidx_main_v1 i k) = catRow x0 x1 x2 (i 0).val k.val := by
  unfold val_main_v0 catRow
  by_cases h1 : k.val < 16641
  · rw [if_pos h1]
    refine (concatenate_apply_piece (1 : Fin S1024x33154.rank)
      [⟨S1024x16641, x0⟩, ⟨S1024x129, x1⟩, ⟨S1024x16384, x2⟩] _ (lidx_main_v1 i k)
      0 (by show (0 : ℕ) < 3; decide) S1024x16641 x0 rfl rfl
      0 rfl (ix2 ⟨(i 0).val, (i 0).isLt⟩ ⟨k.val, h1⟩) (fun b hb => ?_) ?_).trans ?_
    · match b with
      | ⟨0, _⟩ => rfl
      | ⟨1, _⟩ => exact absurd rfl hb
    · exact Nat.zero_add _
    · exact at2_eq x0 _ _ _ rfl rfl
  · rw [if_neg h1]
    by_cases h2 : k.val < 16770
    · rw [if_pos h2]
      refine (concatenate_apply_piece (1 : Fin S1024x33154.rank)
      [⟨S1024x16641, x0⟩, ⟨S1024x129, x1⟩, ⟨S1024x16384, x2⟩] _ (lidx_main_v1 i k)
      1 (by show (1 : ℕ) < 3; decide) S1024x129 x1 rfl rfl
        16641 rfl (ix2 ⟨(i 0).val, (i 0).isLt⟩ ⟨k.val - 16641, by omega⟩) (fun b hb => ?_) ?_).trans ?_
      · match b with
        | ⟨0, _⟩ => rfl
        | ⟨1, _⟩ => exact absurd rfl hb
      · show 16641 + (k.val - 16641) = k.val
        omega
      · exact at2_eq x1 _ _ _ rfl rfl
    · rw [if_neg h2]
      have hk : k.val < 33154 := k.isLt
      refine (concatenate_apply_piece (1 : Fin S1024x33154.rank)
      [⟨S1024x16641, x0⟩, ⟨S1024x129, x1⟩, ⟨S1024x16384, x2⟩] _ (lidx_main_v1 i k)
      2 (by show (2 : ℕ) < 3; decide) S1024x16384 x2 rfl rfl
        16770 rfl (ix2 ⟨(i 0).val, (i 0).isLt⟩ ⟨k.val - 16770, by omega⟩) (fun b hb => ?_) ?_).trans ?_
      · match b with
        | ⟨0, _⟩ => rfl
        | ⟨1, _⟩ => exact absurd rfl hb
      · show 16770 + (k.val - 16770) = k.val
        omega
      · exact at2_eq x2 _ _ _ rfl rfl

/-- The first product read at an index: the inner product of the concatenated row with a column of `W1`. -/
private theorem v1_at (x0 : S1024x16641.Idx → EReal) (x1 : S1024x129.Idx → EReal) (x2 : S1024x16384.Idx → EReal)
    (x3 : S33154x512.Idx → EReal) (i : S1024x512.Idx) :
    val_main_v1 (F := Ideal) x0 x1 x2 x3 i = hidCat x0 x1 x2 x3 (i 0).val (i 1).val := by
  rw [val_main_v1_apply]
  unfold hidCat
  rw [← Fin.sum_univ_eq_sum_range (fun k => catRow x0 x1 x2 (i 0).val k * at2 x3 k (i 1).val) 33154]
  refine Finset.sum_congr rfl fun k _ => ?_
  rw [v0_at, at2_eq x3 (ridx_main_v1 i k) k.val (i 1).val rfl rfl]

/-- The rectified hidden layer read at an index. -/
private theorem v5_at (x0 : S1024x16641.Idx → EReal) (x1 : S1024x129.Idx → EReal) (x2 : S1024x16384.Idx → EReal)
    (x3 : S33154x512.Idx → EReal) (x4 : S512.Idx → EReal) (i : S1024x512.Idx) :
    val_main_v5 (F := Ideal) x0 x1 x2 x3 x4 i
      = max (hidCat x0 x1 x2 x3 (i 0).val (i 1).val + at1 x4 (i 1).val) (Ideal.ofBits .f32 0x00000000#32) := by
  rw [val_main_v5_apply, val_main_v4_apply, val_main_call0_v0_apply, val_main_call0_cst_apply, val_main_v3_apply,
    val_main_v2_apply, v1_at, at1_eq x4 (idx_main_v2 (idx_main_v3 i)) (i 1).val rfl]
  rfl

/-- The output matrix read at an index. -/
private theorem v9_at (x0 : S1024x16641.Idx → EReal) (x1 : S1024x129.Idx → EReal) (x2 : S1024x16384.Idx → EReal)
    (x3 : S33154x512.Idx → EReal) (x4 : S512.Idx → EReal) (x5 : S512x129.Idx → EReal) (x6 : S129.Idx → EReal)
    (i : S1024x129.Idx) :
    val_main_v9 (F := Ideal) x0 x1 x2 x3 x4 x5 x6 i
      = outOf x4 x5 x6 (hidCat x0 x1 x2 x3) (i 0).val (i 1).val := by
  rw [val_main_v9_apply, val_main_v6_apply, val_main_v8_apply, val_main_v7_apply,
    at1_eq x6 (idx_main_v7 (idx_main_v8 i)) (i 1).val rfl]
  unfold outOf
  rw [← Fin.sum_univ_eq_sum_range
    (fun k => max (hidCat x0 x1 x2 x3 (i 0).val k + at1 x4 k) (Ideal.ofBits .f32 0x00000000#32) * at2 x5 k (i 1).val) 512]
  refine congrArg (· + at1 x6 (i 1).val) (Finset.sum_congr rfl fun k _ => ?_)
  rw [v5_at, at2_eq x5 (ridx_main_v6 i k) k.val (i 1).val rfl rfl]

theorem v9_eq (x0 : S1024x16641.Idx → EReal) (x1 : S1024x129.Idx → EReal) (x2 : S1024x16384.Idx → EReal)
    (x3 : S33154x512.Idx → EReal) (x4 : S512.Idx → EReal) (x5 : S512x129.Idx → EReal) (x6 : S129.Idx → EReal) :
    val_main_v9 (F := Ideal) x0 x1 x2 x3 x4 x5 x6 = outCat x0 x1 x2 x3 x4 x5 x6 := by
  funext i
  exact v9_at x0 x1 x2 x3 x4 x5 x6 i

end Cert.ReferenceIdeal.RefValue

end
-- ==== Proof.lean ====
/-
  The idealized kernel and the idealized reference compute the same two-layer perceptron.

  Both take a row `[st p | a p | st1 p]` of 33154 entries to `max (row · W1 + b1) 0 · W2 + b2`. The reference forms the
  row and takes one inner product of 33154 terms per hidden unit. The kernel never forms the row: it accumulates, over 32
  grid steps, the 129 terms of `a` and the last 257 terms of `st` (step 0), sixteen runs of 1024 terms of `st` (steps 0 … 15)
  and sixteen runs of 1024 terms of `st1` (steps 16 … 31), each against the matching rows of `W1`, and applies the second
  layer at the last step. Over the extended reals addition is commutative and associative, so the accumulated total is the
  one inner product (Proof/Spec.lean: the range [0, 33154) cut at 16384, 16641 and 16770, a run of 1024 · n terms as n
  runs of 1024); the second layer is the same expression on both sides, with the same zero word in the rectifier. No
  finiteness of the inputs is used: the precondition is never opened.

  The kernel's side: each control case's stores are the body's arithmetic of the blocks it loads (Proof/Pieces.lean), read
  at an entry as sums of products (Proof/PayIdx.lean) of entries of the argument arrays (Proof/Blocks.lean); by induction on
  the grid step the accumulator holds the specification's running total (Proof/Chain.lean); the output is written back once,
  whole, and flattened (Proof/KernelValue.lean). The reference's side: its stages read at an entry, the concatenation by
  where the column falls (Proof/RefValue.lean). The frames are the programs' runs with the results dropped; the kernel's
  idealization rewrote nothing.
-/
import proofs.«163590_j69922067579329_1_alg».proof.Defs
import proofs.«163590_j69922067579329_1_alg».proof.Proof.Gen.Kernel
import proofs.«163590_j69922067579329_1_alg».proof.Proof.Gen.Kernel.Frame
import proofs.«163590_j69922067579329_1_alg».proof.Proof.Gen.KernelIdeal
import proofs.«163590_j69922067579329_1_alg».proof.Proof.Gen.KernelIdeal.Frame
import proofs.«163590_j69922067579329_1_alg».proof.Proof.Gen.ReferenceIdeal
import proofs.«163590_j69922067579329_1_alg».proof.Proof.Gen.ReferenceIdeal.Run
import proofs.«163590_j69922067579329_1_alg».proof.Proof.Gen.ReferenceIdeal.Read
import proofs.«163590_j69922067579329_1_alg».proof.Proof.Gen.Pre_finite_inputs
import proofs.«163590_j69922067579329_1_alg».proof.Proof.KernelValue
import proofs.«163590_j69922067579329_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories that agree on the arguments both runs end at the flattened output matrix: the kernel's with the first
    layer accumulated in steps, the reference's with it as one inner product — the same matrix. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => shapeCast Cert.KernelIdeal.S132096 (Cert.KernelIdeal.KValue.outMat m c)
    Cert.KernelIdeal.Gen.shapeCasts_S1024x129_S132096, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Read.val_main_v10 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
  unfold Cert.ReferenceIdeal.Read.val_main_v10
  rw [Cert.ReferenceIdeal.RefValue.v9_eq, (hagree c).1, (hagree c).2.1, (hagree c).2.2.1, (hagree c).2.2.2.1,
    (hagree c).2.2.2.2.1, (hagree c).2.2.2.2.2.1, (hagree c).2.2.2.2.2.2]
  have e : Cert.KernelIdeal.KValue.outMat m c
      = Cert.Mlp.outCat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
    Cert.Mlp.outSteps_eq_outCat _ _ _ _ _ _ _
  show _ = shapeCast Cert.KernelIdeal.S132096 (Cert.KernelIdeal.KValue.outMat m c)
    Cert.KernelIdeal.Gen.shapeCasts_S1024x129_S132096
  rw [e]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
